-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000x128 : Shape := ⟨2, ![600000, 128]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S_ : Shape := ⟨0, ![]⟩
abbrev S1x600000 : Shape := ⟨2, ![1, 600000]⟩
abbrev S600000 : Shape := ⟨1, ![600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_v48 : IVec S_ 1) (main_v50 : IVec S600000 32) (main_c_18 : IVec S_ 32) : IVec S_ 1 :=
  let main_v51 : IVec S600000 32 := broadcastInDim S600000 ![] bcast_S_S600000 main_c_18
  let main_v52 : IVec S600000 1 := cmpi .sge main_v50 main_v51
  let main_c_19 : IVec S_ 1 := constantI S_ 1 1#1
  let main_v53 : IVec S_ 1 := (fun x v => Host.reduce IntOp.andi x v reducesTo_S600000_S_d0 h_S_) main_v52 main_c_19
  let main_v54 : IVec S_ 1 := andi main_v48 main_v53
  main_v54

def fn_part2 {F : FTy → Type} [FloatOps F] (main_arg1 : IVec S2x600000 32) (main_arg8 : FVec F S384 .f32) (main_arg9 : FVec F S384x128 .f32) (main_arg10 : FVec F S384 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg10
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : IVec S1x600000 32 := (extractStridedSlice S1x600000 ![0, 0] · slices_S2x600000_S1x600000_0_0) main_arg1
  let main_v50 : IVec S600000 32 := shapeCast S600000 main_v49 shapeCasts_S1x600000_S600000
  let main_c_18 : IVec S_ 32 := constantI S_ 32 0#32
  fn_part3 (F := F) main_v48 main_v50 main_c_18

def fn_part1 {F : FTy → Type} [FloatOps F] (main_arg1 : IVec S2x600000 32) (main_arg5 : FVec F S128x128 .f32) (main_arg6 : FVec F S128 .f32) (main_arg7 : FVec F S384x128 .f32) (main_arg8 : FVec F S384 .f32) (main_arg9 : FVec F S384x128 .f32) (main_arg10 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x600000 32) (main_arg2 : FVec F S600000x128 .f32) (main_arg3 : FVec F S128x384 .f32) (main_arg4 : FVec F S128 .f32) (main_arg5 : FVec F S128x128 .f32) (main_arg6 : FVec F S128 .f32) (main_arg7 : FVec F S384x128 .f32) (main_arg8 : FVec F S384 .f32) (main_arg9 : FVec F S384x128 .f32) (main_arg10 : FVec F S384 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x384 .f32 := Host.absf main_arg3
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S600000x128 : Shape := ⟨2, ![600000, 128]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S600000x1 : Shape := ⟨2, ![600000, 1]⟩
abbrev S1x128 : Shape := ⟨2, ![1, 128]⟩
abbrev S6000x128 : Shape := ⟨2, ![6000, 128]⟩
abbrev S_ : Shape := ⟨0, ![]⟩
abbrev S1x384 : Shape := ⟨2, ![1, 384]⟩
abbrev S4000x128 : Shape := ⟨2, ![4000, 128]⟩
abbrev S4000x384 : Shape := ⟨2, ![4000, 384]⟩

abbrev nBuf : Space → Nat
  | .hbm => 39
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S128x384, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S384x128, .f32⟩
  | .hbm, ⟨10, _⟩ => ⟨S384, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S100000x128, .bf16⟩
  | .hbm, ⟨16, _⟩ => ⟨S600000x1, .i32⟩
  | .hbm, ⟨17, _⟩ => ⟨S600000x128, .bf16⟩
  | .hbm, ⟨18, _⟩ => ⟨S600000x1, .i32⟩
  | .hbm, ⟨19, _⟩ => ⟨S600000x128, .bf16⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x384, .f32⟩
  | .hbm, ⟨28, _⟩ => ⟨S128x384, .f32⟩
  | .hbm, ⟨29, _⟩ => ⟨S1x128, .f32⟩
  | .hbm, ⟨30, _⟩ => ⟨S1x128, .f32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S1x384, .f32⟩
  | .hbm, ⟨37, _⟩ => ⟨S1x384, .f32⟩
  | .hbm, ⟨38, _⟩ => ⟨S100000x128, .f32⟩
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S6000x128, .f32⟩
  | .local _ .vmem, ⟨5, _⟩ => ⟨S6000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S6000x128, .f32⟩
  | .local _ .vmem, ⟨13, _⟩ => ⟨S6000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x384, .f32⟩
  | .local _ .vmem, ⟨19, _⟩ => ⟨S1x384, .f32⟩
  | .local _ .vmem, ⟨20, _⟩ => ⟨S128x384, .f32⟩
  | .local _ .vmem, ⟨21, _⟩ => ⟨S1x384, .f32⟩
  | .local _ .vmem, ⟨22, _⟩ => ⟨S4000x128, .f32⟩
  | .local _ .vmem, ⟨23, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_v5 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S6000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S600000_S600000x1_0 : S600000.BroadcastsInDim S600000x1 (![0] : Fin 1 → Fin S600000x1.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  transposes_S384x128_S128x384_1_0 : S384x128.Transposes [1, 0] S128x384
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  bcast_S_S100000x128 : S_.BroadcastsInDim S100000x128 (![] : Fin 0 → Fin S100000x128.rank)
  shapeCasts_S384_S1x384 : S384.ShapeCasts S1x384
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  slices_S4000x384_o0_0_S4000x128 : S4000x384.Slices ![0, 0] S4000x128
  slices_S4000x384_o0_128_S4000x128 : S4000x384.Slices ![0, 128] S4000x128
  slices_S4000x384_o0_256_S4000x128 : S4000x384.Slices ![0, 256] S4000x128
  gather_S100000x128_S600000x1_S600000x128_1_0_n_n_0_1_1128_wf : GatherDims.WF S100000x128 S600000x1 S600000x128 [1] [0] [] [0] [] 1 ![1, 128]
  dot_S6000x128_S128x128_S6000x128_1_0_0_1_n_n_wf : DotDims.WF S6000x128 S128x128 S6000x128 [1] [0] [0] [1] [] []
  scatter_S100000x128_S600000x1_S600000x128_1_0_0_1_wf : ScatterDims.WF S100000x128 S600000x1 S600000x128 [1] [0] [0] 1
  dot_S4000x128_S128x384_S4000x384_1_0_0_1_n_n_wf : DotDims.WF S4000x128 S128x384 S4000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S6000x128.size a ≤ S600000x128.size a
  hwx0_9 : ∀ i : grid0.Coords, EltTy.bits .f32 = 32 ∨ (Rect.block (s := S600000x128) S6000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x384.size a ≤ S128x384.size a
  hwx1_2 : ∀ i : grid1.Coords, EltTy.bits .f32 = 32 ∨ (Rect.block (s := S128x384) S128x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .f32 = 32 ∨ (Rect.block (s := S128x384) S128x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf

abbrev win0_0 : Pipeline.Window sig grid0 :=
  Pipeline.Window.ofSpec (Memref.whole main_v5) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S6000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v21) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000x128 : Shape := ⟨2, ![600000, 128]⟩
abbrev S128x384 : Shape := ⟨2, ![128, 384]⟩
abbrev S128 : Shape := ⟨1, ![128]⟩
abbrev S128x128 : Shape := ⟨2, ![128, 128]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x384 : Shape := ⟨2, ![600000, 384]⟩
abbrev S1x128 : Shape := ⟨2, ![1, 128]⟩
abbrev S100000x384 : Shape := ⟨2, ![100000, 384]⟩
abbrev S1x384 : Shape := ⟨2, ![1, 384]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000x128, .f32⟩
  | .hbm, ⟨3, _⟩ => ⟨S128x384, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384, .f32⟩
  | .hbm, ⟨9, _⟩ => ⟨S384x128, .f32⟩
  | .hbm, ⟨10, _⟩ => ⟨S384, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x384, .f32⟩
  | .hbm, ⟨34, _⟩ => ⟨S384x128, .f32⟩
  | .hbm, ⟨35, _⟩ => ⟨S600000x128, .f32⟩
  | .hbm, ⟨36, _⟩ => ⟨S1x128, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S600000x128, .f32⟩
  | .hbm, ⟨41, _⟩ => ⟨S600000x128, .f32⟩
  | .hbm, ⟨42, _⟩ => ⟨S128x128, .f32⟩
  | .hbm, ⟨43, _⟩ => ⟨S600000x128, .f32⟩
  | .hbm, ⟨44, _⟩ => ⟨S1x128, .f32⟩
  | .hbm, ⟨45, _⟩ => ⟨S600000x128, .f32⟩
  | .hbm, ⟨46, _⟩ => ⟨S600000x128, .f32⟩
  | .hbm, ⟨47, _⟩ => ⟨S_, .f32⟩
  | .hbm, ⟨48, _⟩ => ⟨S100000x128, .f32⟩
  | .hbm, ⟨49, _⟩ => ⟨S600000x1, .i32⟩
  | .hbm, ⟨50, _⟩ => ⟨S100000x128, .f32⟩
  | .hbm, ⟨51, _⟩ => ⟨S128x384, .f32⟩
  | .hbm, ⟨52, _⟩ => ⟨S100000x384, .f32⟩
  | .hbm, ⟨53, _⟩ => ⟨S1x384, .f32⟩
  | .hbm, ⟨54, _⟩ => ⟨S100000x384, .f32⟩
  | .hbm, ⟨55, _⟩ => ⟨S100000x384, .f32⟩
  | .hbm, ⟨56, _⟩ => ⟨S128x384, .f32⟩
  | .hbm, ⟨57, _⟩ => ⟨S100000x384, .f32⟩
  | .hbm, ⟨58, _⟩ => ⟨S1x384, .f32⟩
  | .hbm, ⟨59, _⟩ => ⟨S100000x384, .f32⟩
  | .hbm, ⟨60, _⟩ => ⟨S100000x384, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_cst_6 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  transposes_S128x384_S384x128_1_0 : S128x384.Transposes [1, 0] S384x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S128x128_S128x128_1_0 : S128x128.Transposes [1, 0] S128x128
  bcast_S_S100000x128 : S_.BroadcastsInDim S100000x128 (![] : Fin 0 → Fin S100000x128.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  gather_S100000x128_S600000x1_S600000x128_1_0_n_n_0_1_1128_wf : GatherDims.WF S100000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  dot_S100000x128_S128x384_S100000x384_1_0_0_1_n_n_wf : DotDims.WF S100000x128 S128x384 S100000x384 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf

class Facts : Prop extends Facts₀ where

variable [Facts]
-- ==== Proof.Spec.lean ====
/-
  The mathematics both programs compute, over the extended reals: one round of message passing on a graph
  followed by a gated recurrent update of every node.

  * For an edge with source features s, destination features d and edge features a (128 numbers each) the hidden
    layer is  h(k) = max( Σ_q s(q)·W1(k,q) + Σ_q d(q)·W1(k,128+q) + Σ_q a(q)·W1(k,256+q) + b1(k), 0 ),
    and the message is  msg(j) = Σ_k h(k)·W2(j,k) + b2(j).
  * Node n receives the sum of the messages of the edges whose destination number is n.
  * With g the received sum and x the node's own features, the gates are affine in g and in x
    (rows 0…127 the reset gate, 128…255 the update gate, 256…383 the candidate), and the new features are
    (1 − z)·tanh(i_n + r·h_n) + z·x  with r, z logistic functions of the summed gate inputs.

  The kernels receive the weights transposed, so every row function is stated twice: over the weights as the
  inputs store them (output-major) and over their transposes, with the lemma that joins the two.
-/
import Idealize.ShloMosaic.PureOps.Ideal
import Idealize.ShloMosaic.PureOps.IdealRules
import Idealize.ShloMosaic.Lib.ValueIdx

noncomputable section

namespace Cert.Spec

open Idealize.ShloMosaic Idealize.ShloMosaic.ValueIdx

/-- A two-axis array of extended reals. -/
abbrev Mat (N K : ℕ) : Type := (⟨2, ![N, K]⟩ : Shape).Idx → EReal
/-- A one-axis array of extended reals. -/
abbrev Lst (N : ℕ) : Type := (⟨1, ![N]⟩ : Shape).Idx → EReal
/-- The edge list: row 0 the source numbers, row 1 the destination numbers, as 32-bit words. -/
abbrev Edges : Type := (⟨2, ![2, 600000]⟩ : Shape).Idx → BitVec 32

/-- The value of the word 0x00000000 (zero). -/
abbrev zero : EReal := Ideal.ofBits .f32 0x00000000#32
/-- The value of the word 0x3F800000 (one). -/
abbrev one : EReal := Ideal.ofBits .f32 0x3F800000#32

theorem one_eq : one = 1 := IdealRules.sign_bit.ideal_onePat .f32

/-- Row r of a two-axis array. -/
def row {N K : ℕ} (A : Mat N K) (r : Fin N) : Fin K → EReal := fun k => A (ix2 r k)

/-! ## The edge network, weights transposed (input-major) -/

/-- The hidden layer from the three transposed blocks of the first weight matrix and the bias as a one-row array. -/
def hiddenT (A B C : Mat 128 128) (b1 : Mat 1 128) (s d a : Fin 128 → EReal) (k : Fin 128) : EReal :=
  max ((((∑ q : Fin 128, s q * A (ix2 q k)) + ∑ q : Fin 128, d q * B (ix2 q k)) + ∑ q : Fin 128, a q * C (ix2 q k))
    + b1 (ix2 0 k)) zero

/-- The message from the transposed weights. -/
def messageT (A B C : Mat 128 128) (b1 : Mat 1 128) (D : Mat 128 128) (b2 : Mat 1 128) (s d a : Fin 128 → EReal)
    (j : Fin 128) : EReal :=
  (∑ k : Fin 128, hiddenT A B C b1 s d a k * D (ix2 k j)) + b2 (ix2 0 j)

/-! ## The edge network, weights as stored (output-major) -/

/-- Column q of the first, second or third block of 128 columns. -/
def col0 (q : Fin 128) : Fin 384 := ⟨q.val, by have := q.isLt; omega⟩
def col1 (q : Fin 128) : Fin 384 := ⟨128 + q.val, by have := q.isLt; omega⟩
def col2 (q : Fin 128) : Fin 384 := ⟨256 + q.val, by have := q.isLt; omega⟩

def hidden (W1 : Mat 128 384) (b1 : Lst 128) (s d a : Fin 128 → EReal) (k : Fin 128) : EReal :=
  max ((((∑ q : Fin 128, s q * W1 (ix2 k (col0 q))) + ∑ q : Fin 128, d q * W1 (ix2 k (col1 q)))
    + ∑ q : Fin 128, a q * W1 (ix2 k (col2 q))) + b1 (ix1 k)) zero

def message (W1 : Mat 128 384) (b1 : Lst 128) (W2 : Mat 128 128) (b2 : Lst 128) (s d a : Fin 128 → EReal)
    (j : Fin 128) : EReal :=
  (∑ k : Fin 128, hidden W1 b1 s d a k * W2 (ix2 j k)) + b2 (ix1 j)

/-- The transposed spelling is the stored one when the transposed arrays are what their names say. -/
theorem messageT_eq {A B C : Mat 128 128} {b1r : Mat 1 128} {D : Mat 128 128} {b2r : Mat 1 128}
    {W1 : Mat 128 384} {b1 : Lst 128} {W2 : Mat 128 128} {b2 : Lst 128}
    (hA : ∀ q k, A (ix2 q k) = W1 (ix2 k (col0 q))) (hB : ∀ q k, B (ix2 q k) = W1 (ix2 k (col1 q)))
    (hC : ∀ q k, C (ix2 q k) = W1 (ix2 k (col2 q))) (hb1 : ∀ k, b1r (ix2 0 k) = b1 (ix1 k))
    (hD : ∀ k j, D (ix2 k j) = W2 (ix2 j k)) (hb2 : ∀ j, b2r (ix2 0 j) = b2 (ix1 j)) (s d a : Fin 128 → EReal) :
    messageT A B C b1r D b2r s d a = message W1 b1 W2 b2 s d a := by
  funext j
  unfold messageT message hiddenT hidden
  simp only [hA, hB, hC, hb1, hD, hb2]

/-! ## The node update -/

def gate0 (j : Fin 128) : Fin 384 := col0 j
def gate1 (j : Fin 128) : Fin 384 := col1 j
def gate2 (j : Fin 128) : Fin 384 := col2 j

/-- One affine gate input from transposed weights: Σ_k v(k)·W(k,g) + b(g). -/
def affT (W : Mat 128 384) (b : Mat 1 384) (v : Fin 128 → EReal) (g : Fin 384) : EReal :=
  (∑ k : Fin 128, v k * W (ix2 k g)) + b (ix2 0 g)

/-- The same from stored weights: Σ_k v(k)·W(g,k) + b(g). -/
def aff (W : Mat 384 128) (b : Lst 384) (v : Fin 128 → EReal) (g : Fin 384) : EReal :=
  (∑ k : Fin 128, v k * W (ix2 g k)) + b (ix1 g)

/-- The gated update from the two families of gate inputs (gi from the received sum, gh from the node's own features). -/
def gated (gi gh : Fin 384 → EReal) (x : Fin 128 → EReal) (j : Fin 128) : EReal :=
  (one - Ideal.logistic (gi (gate1 j) + gh (gate1 j)))
      * Ideal.tanh (gi (gate2 j) + Ideal.logistic (gi (gate0 j) + gh (gate0 j)) * gh (gate2 j))
    + Ideal.logistic (gi (gate1 j) + gh (gate1 j)) * x j

def updateT (Wi : Mat 128 384) (bi : Mat 1 384) (Wh : Mat 128 384) (bh : Mat 1 384) (g x : Fin 128 → EReal) :
    Fin 128 → EReal :=
  gated (affT Wi bi g) (affT Wh bh x) x

def update (Wi : Mat 384 128) (bi : Lst 384) (Wh : Mat 384 128) (bh : Lst 384) (g x : Fin 128 → EReal) :
    Fin 128 → EReal :=
  gated (aff Wi bi g) (aff Wh bh x) x

theorem updateT_eq {WiT : Mat 128 384} {bir : Mat 1 384} {WhT : Mat 128 384} {bhr : Mat 1 384}
    {Wi : Mat 384 128} {bi : Lst 384} {Wh : Mat 384 128} {bh : Lst 384}
    (hWi : ∀ k g, WiT (ix2 k g) = Wi (ix2 g k)) (hbi : ∀ g, bir (ix2 0 g) = bi (ix1 g))
    (hWh : ∀ k g, WhT (ix2 k g) = Wh (ix2 g k)) (hbh : ∀ g, bhr (ix2 0 g) = bh (ix1 g)) (g x : Fin 128 → EReal) :
    updateT WiT bir WhT bhr g x = update Wi bi Wh bh g x := by
  unfold updateT update
  congr 1 <;> funext q <;> unfold affT aff <;> simp only [hWi, hbi, hWh, hbh]

/-- The logistic function in the spelling "one over one plus the exponential of the negative". -/
theorem logistic_spelled (y : EReal) : Ideal.div one (one + Ideal.exp (-y)) = Ideal.logistic y := by
  rw [one_eq]; rfl

/-! ## Gathering rows and summing messages -/

/-- A 32-bit word read as a signed row number and clamped into the table of 100000 rows. -/
def clampRow (v : BitVec 32) : Fin 100000 := ⟨min v.toInt.toNat 99999, by omega⟩

/-- The row number jnp's indexing uses: a negative number counts from the end. -/
def wrap (v : BitVec 32) : BitVec 32 := if v.toInt < 0 then v + 100000#32 else v

theorem wrap_of_nonneg {v : BitVec 32} (h : 0 ≤ v.toInt) : wrap v = v := by
  unfold wrap; rw [if_neg (by omega)]

/-- Source and destination word of edge e. -/
def src (ei : Edges) (e : Fin 600000) : BitVec 32 := ei (ix2 0 e)
def dst (ei : Edges) (e : Fin 600000) : BitVec 32 := ei (ix2 1 e)

/-- The sum received by node n, at feature k: the messages of the edges whose destination word, read signed, is n. -/
def received (ei : Edges) (msg : Fin 600000 → Fin 128 → EReal) (n : Fin 100000) (k : Fin 128) : EReal :=
  zero + ∑ e : Fin 600000, if (dst ei e).toInt = (n.val : ℤ) then msg e k else 0

/-- Messages that agree on every edge whose destination is a node give the same received sums. -/
theorem received_congr (ei : Edges) {msg msg' : Fin 600000 → Fin 128 → EReal}
    (h : ∀ e, 0 ≤ (dst ei e).toInt → msg e = msg' e) : received ei msg = received ei msg' := by
  funext n k
  unfold received
  refine congrArg (zero + ·) (Finset.sum_congr rfl fun e _ => ?_)
  by_cases hd : (dst ei e).toInt = (n.val : ℤ)
  · rw [if_pos hd, if_pos hd, h e (by omega)]
  · rw [if_neg hd, if_neg hd]

/-- The message of edge e when rows are fetched at the index function pick (clamped into the table). -/
def edgeMessage (x : Mat 100000 128) (ei : Edges) (ea : Mat 600000 128) (W1 : Mat 128 384) (b1 : Lst 128)
    (W2 : Mat 128 128) (b2 : Lst 128) (pick : BitVec 32 → BitVec 32) (e : Fin 600000) : Fin 128 → EReal :=
  message W1 b1 W2 b2 (row x (clampRow (pick (src ei e)))) (row x (clampRow (pick (dst ei e)))) (row ea e)

/-- The whole computation with rows fetched at pick of the edge's words. -/
def result (pick : BitVec 32 → BitVec 32) (x : Mat 100000 128) (ei : Edges) (ea : Mat 600000 128) (W1 : Mat 128 384)
    (b1 : Lst 128) (W2 : Mat 128 128) (b2 : Lst 128) (Wi : Mat 384 128) (bi : Lst 384) (Wh : Mat 384 128) (bh : Lst 384) :
    Mat 100000 128 :=
  fun i => update Wi bi Wh bh (received ei (edgeMessage x ei ea W1 b1 W2 b2 pick) (i 0)) (row x (i 0)) (i 1)

/-- With every source number non-negative, counting negative numbers from the end changes nothing: a source row is
    fetched at the same place, and an edge whose destination number is negative delivers its message to no node. -/
theorem result_wrap_eq (x : Mat 100000 128) (ei : Edges) (ea : Mat 600000 128) (W1 : Mat 128 384)
    (b1 : Lst 128) (W2 : Mat 128 128) (b2 : Lst 128) (Wi : Mat 384 128) (bi : Lst 384) (Wh : Mat 384 128) (bh : Lst 384)
    (hsrc : ∀ e, 0 ≤ (src ei e).toInt) :
    result wrap x ei ea W1 b1 W2 b2 Wi bi Wh bh = result id x ei ea W1 b1 W2 b2 Wi bi Wh bh := by
  funext i
  unfold result
  rw [received_congr ei (msg := edgeMessage x ei ea W1 b1 W2 b2 wrap) (msg' := edgeMessage x ei ea W1 b1 W2 b2 id)]
  intro e hd
  unfold edgeMessage
  rw [wrap_of_nonneg (hsrc e), wrap_of_nonneg hd]
  rfl

end Cert.Spec

end
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«414448_j16415365005578_2_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.Reg0Val.lean ====
import proofs.«414448_j16415365005578_2_alg».proof.Proof.Gen.KernelIdeal.Frame
import proofs.«414448_j16415365005578_2_alg».proof.Proof.Spec
import proofs.«414448_j16415365005578_2_alg».proof.Proof.LibPlainAny
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.Spec
open Idealize.ShloMosaic.ValueIdx

variable (V : (c : Dev nD) → (b : Ref sig .tc) → Buf (Elt Ideal) ((c : Thread nD τ).loc b))

/-! ## The body's stored value at one (row, feature) -/

/-- A product of a block of 6000 rows with a 128 × 128 matrix into a zero accumulator, at (p, j), whatever the
    operands' float formats: the sum over k of l (p, k) · r (k, j). -/
theorem block_product_apply {φ₁ φ₂ : FTy} (l : FVec Ideal S6000x128 φ₁) (r : FVec Ideal S128x128 φ₂) (p : Fin 6000) (j : Fin 128) :
    matmul dot_S6000x128_S128x128_S6000x128_1_0_0_1_n_n none l r (constant S6000x128 .f32 0x00000000#32) (ix2 p j)
      = ∑ k : Fin 128, l (ix2 p k) * r (ix2 k j) :=
  Rows.matmul_plain_any l r p j

/-- A one-row array laid along every row of the block, at (p, j): the row's entry j. -/
theorem bias_row_apply (b : Vec Ideal S1x128 .f32) (h1 : S1x128.ShapeCasts S1x128) (h2 : S1x128.Broadcasts S6000x128)
    (p : Fin 6000) (j : Fin 128) :
    broadcastTo S6000x128 (shapeCast S1x128 b h1) h2 (ix2 p j) = b (ix2 (0 : Fin 1) j) := by
  rw [broadcastTo_1b_ab_apply, shapeCast_self]

/-- The value the body stores at row p, feature j of its block: the message computed from row p of the three row
    blocks. Every narrowing is the identity on extended reals, so each product is the plain sum. -/
theorem stored_apply (x0 x1 : Vec Ideal S6000x128 .bf16) (x2 : Vec Ideal S6000x128 .f32)
    (x3 x4 x5 : Vec Ideal S128x128 .f32) (x6 : Vec Ideal S1x128 .f32) (x7 : Vec Ideal S128x128 .f32)
    (x8 : Vec Ideal S1x128 .f32) (p : Fin 6000) (j : Fin 128) :
    k0_pay1 x0 x1 x2 x3 x4 x5 x6 x7 x8 (ix2 p j)
      = messageT x3 x4 x5 x6 x7 x8 (fun q => x0 (ix2 p q)) (fun q => x1 (ix2 p q)) (fun q => x2 (ix2 p q)) j := by
  unfold k0_pay1
  rw [shapeCast_self x0, shapeCast_self x1, shapeCast_self x3, shapeCast_self x4, shapeCast_self x5, shapeCast_self x7]
  rw [addf_apply, block_product_apply, bias_row_apply]
  unfold messageT hiddenT
  refine congrArg (· + x8 (ix2 (0 : Fin 1) j)) (Finset.sum_congr rfl fun k _ => ?_)
  rw [truncf_apply, truncf_apply, maximumf_apply, addf_apply, addf_apply, addf_apply, block_product_apply,
    block_product_apply, block_product_apply, bias_row_apply, broadcast_apply]
  rfl

/-! ## The windows' blocks as parts of their arrays -/

theorem zero_offsets : (![0, 0] : Fin 2 → Nat) = fun _ => 0 := funext fun a => by fin_cases a <;> rfl

/-- The index maps over the grid: at point t a window of 6000 rows is at block (t, 0), a window that is its whole
    array at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row p of the source-feature window's block at point t is row 6000·t + p of its array. -/
theorem src_block_apply (c : Dev nD) (t : Fin cfg0.N) (p : Fin 6000) (q : Fin 128) (hr : 6000 * t.val + p.val < 600000) :
    (iblk0 V c 0 t : Vec Ideal S6000x128 .bf16) (ix2 p q)
      = (V c main_v5 : S600000x128.Idx → EReal) (ix2 ⟨6000 * t.val + p.val, hr⟩ q) := by
  obtain ⟨e0, e1⟩ := (block_index t).1
  unfold iblk0
  rw [View.read_apply]
  show V c main_v5 (((cfg0.win 0).blk t).view.emb (ix2 p q)) = V c main_v5 (ix2 ⟨6000 * t.val + p.val, hr⟩ q)
  refine congrArg (V c main_v5) (funext fun a => Fin.ext ?_)
  match a with
  | ⟨0, _⟩ => show win0_0.index t (0 : Fin 2) * 6000 + 1 * p.val = 6000 * t.val + p.val; omega
  | ⟨1, _⟩ => show win0_0.index t (1 : Fin 2) * 128 + 1 * q.val = q.val; omega

/-- Row p of the destination-feature window's block at point t is row 6000·t + p of its array. -/
theorem dst_block_apply (c : Dev nD) (t : Fin cfg0.N) (p : Fin 6000) (q : Fin 128) (hr : 6000 * t.val + p.val < 600000) :
    (iblk0 V c 1 t : Vec Ideal S6000x128 .bf16) (ix2 p q)
      = (V c main_v6 : S600000x128.Idx → EReal) (ix2 ⟨6000 * t.val + p.val, hr⟩ q) := by
  obtain ⟨e0, e1⟩ := (block_index t).2.1
  unfold iblk0
  rw [View.read_apply]
  show V c main_v6 (((cfg0.win 1).blk t).view.emb (ix2 p q)) = V c main_v6 (ix2 ⟨6000 * t.val + p.val, hr⟩ q)
  refine congrArg (V c main_v6) (funext fun a => Fin.ext ?_)
  match a with
  | ⟨0, _⟩ => show win0_1.index t (0 : Fin 2) * 6000 + 1 * p.val = 6000 * t.val + p.val; omega
  | ⟨1, _⟩ => show win0_1.index t (1 : Fin 2) * 128 + 1 * q.val = q.val; omega

/-- Row p of the edge-feature window's block at point t is row 6000·t + p of its array. -/
theorem attr_block_apply (c : Dev nD) (t : Fin cfg0.N) (p : Fin 6000) (q : Fin 128) (hr : 6000 * t.val + p.val < 600000) :
    (iblk0 V c 2 t : Vec Ideal S6000x128 .f32) (ix2 p q)
      = (V c main_arg2 : S600000x128.Idx → EReal) (ix2 ⟨6000 * t.val + p.val, hr⟩ q) := by
  obtain ⟨e0, e1⟩ := (block_index t).2.2.1
  unfold iblk0
  rw [View.read_apply]
  show V c main_arg2 (((cfg0.win 2).blk t).view.emb (ix2 p q)) = V c main_arg2 (ix2 ⟨6000 * t.val + p.val, hr⟩ q)
  refine congrArg (V c main_arg2) (funext fun a => Fin.ext ?_)
  match a with
  | ⟨0, _⟩ => show win0_2.index t (0 : Fin 2) * 6000 + 1 * p.val = 6000 * t.val + p.val; omega
  | ⟨1, _⟩ => show win0_2.index t (1 : Fin 2) * 128 + 1 * q.val = q.val; omega

/-- The first weight block's window is its whole array at every point. -/
theorem w1a_block (c : Dev nD) (t : Fin cfg0.N) :
    (iblk0 V c 3 t : Vec Ideal S128x128 .f32) = (V c main_v8 : S128x128.Idx → EReal) := by
  obtain ⟨e0, e1⟩ := (block_index t).2.2.2.1
  funext y
  unfold iblk0
  rw [View.read_apply]
  show V c main_v8 (((cfg0.win 3).blk t).view.emb y) = V c main_v8 y
  refine congrArg (V c main_v8) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The second weight block's window is its whole array at every point. -/
theorem w1b_block (c : Dev nD) (t : Fin cfg0.N) :
    (iblk0 V c 4 t : Vec Ideal S128x128 .f32) = (V c main_v10 : S128x128.Idx → EReal) := by
  obtain ⟨e0, e1⟩ := (block_index t).2.2.2.2.1
  funext y
  unfold iblk0
  rw [View.read_apply]
  show V c main_v10 (((cfg0.win 4).blk t).view.emb y) = V c main_v10 y
  refine congrArg (V c main_v10) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The third weight block's window is its whole array at every point. -/
theorem w1c_block (c : Dev nD) (t : Fin cfg0.N) :
    (iblk0 V c 5 t : Vec Ideal S128x128 .f32) = (V c main_v12 : S128x128.Idx → EReal) := by
  obtain ⟨e0, e1⟩ := (block_index t).2.2.2.2.2.1
  funext y
  unfold iblk0
  rw [View.read_apply]
  show V c main_v12 (((cfg0.win 5).blk t).view.emb y) = V c main_v12 y
  refine congrArg (V c main_v12) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The first bias row's window is its whole array at every point. -/
theorem b1_block (c : Dev nD) (t : Fin cfg0.N) :
    (iblk0 V c 6 t : Vec Ideal S1x128 .f32) = (V c main_v16 : S1x128.Idx → EReal) := by
  obtain ⟨e0, e1⟩ := (block_index t).2.2.2.2.2.2.1
  funext y
  unfold iblk0
  rw [View.read_apply]
  show V c main_v16 (((cfg0.win 6).blk t).view.emb y) = V c main_v16 y
  refine congrArg (V c main_v16) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The second weight matrix's window is its whole array at every point. -/
theorem w2_block (c : Dev nD) (t : Fin cfg0.N) :
    (iblk0 V c 7 t : Vec Ideal S128x128 .f32) = (V c main_v13 : S128x128.Idx → EReal) := by
  obtain ⟨e0, e1⟩ := (block_index t).2.2.2.2.2.2.2.1
  funext y
  unfold iblk0
  rw [View.read_apply]
  show V c main_v13 (((cfg0.win 7).blk t).view.emb y) = V c main_v13 y
  refine congrArg (V c main_v13) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- The second bias row's window is its whole array at every point. -/
theorem b2_block (c : Dev nD) (t : Fin cfg0.N) :
    (iblk0 V c 8 t : Vec Ideal S1x128 .f32) = (V c main_v17 : S1x128.Idx → EReal) := by
  obtain ⟨e0, e1⟩ := (block_index t).2.2.2.2.2.2.2.2.1
  funext y
  unfold iblk0
  rw [View.read_apply]
  show V c main_v17 (((cfg0.win 8).blk t).view.emb y) = V c main_v17 y
  refine congrArg (V c main_v17) (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

/-! ## What a point writes back, and the whole array -/

/-- The array of messages: row e is the message of edge e, from row e of the two gathered feature arrays and of the
    edge features. -/
abbrev edgeMessages (c : Dev nD) : S600000x128.Idx → EReal := fun i =>
  messageT (V c main_v8) (V c main_v10) (V c main_v12) (V c main_v16) (V c main_v13) (V c main_v17)
    (row (V c main_v5) (i 0)) (row (V c main_v6) (i 0)) (row (V c main_arg2) (i 0)) (i 1)

/-- The message is a function of its twelve arguments. -/
theorem messageT_congr {A A' B B' C C' : Mat 128 128} {b1 b1' : Mat 1 128} {D D' : Mat 128 128} {b2 b2' : Mat 1 128}
    {s s' d d' a a' : Fin 128 → EReal} (hA : A = A') (hB : B = B') (hC : C = C') (hb1 : b1 = b1') (hD : D = D')
    (hb2 : b2 = b2') (hs : s = s') (hd : d = d') (ha : a = a') (j : Fin 128) :
    messageT A B C b1 D b2 s d a j = messageT A' B' C' b1' D' b2' s' d' a' j := by
  rw [hA, hB, hC, hb1, hD, hb2, hs, hd, ha]

/-- A block of 6000 rows that agrees with an array G, row p with row 6000·t + p, is G read through the output
    window's block at point t. -/
theorem out_block_eq (t : Fin cfg0.N) (X : Vec Ideal S6000x128 .f32) (G : S600000x128.Idx → EReal)
    (h : ∀ (p : Fin 6000) (j : Fin 128) (hr : 6000 * t.val + p.val < 600000),
      X (ix2 p j) = G (ix2 ⟨6000 * t.val + p.val, hr⟩ j)) :
    (cfg0.win 9).cut (grid0.coords t) X = ((cfg0.win 9).blk t).view.read (Elt Ideal) G := by
  obtain ⟨e0, e1⟩ := (block_index t).2.2.2.2.2.2.2.2.2
  funext y
  rw [View.read_apply]
  show X y = G (((cfg0.win 9).blk t).view.emb y)
  have ht : t.val < 100 := t.isLt
  have hy : (y 0).val < 6000 := (y 0).isLt
  have hr : 6000 * t.val + (y 0).val < 600000 := by omega
  have e : ((cfg0.win 9).blk t).view.emb y = ix2 ⟨6000 * t.val + (y 0).val, hr⟩ (y 1) :=
    funext fun a => Fin.ext (by
      match a with
      | ⟨0, _⟩ => show win0_9.index t (0 : Fin 2) * 6000 + 1 * (y 0).val = 6000 * t.val + (y 0).val; omega
      | ⟨1, _⟩ => show win0_9.index t (1 : Fin 2) * 128 + 1 * (y 1).val = (y 1).val; omega)
  exact (congrArg X (eq_ix2 y)).trans ((h (y 0) (y 1) hr).trans (congrArg G e.symm))

/-- What point t writes back is block t of the array of messages. -/
theorem flushed_eq (c : Dev nD) (t : Fin cfg0.N) :
    (dat0 (F := Ideal) V c).flushed 9 t = ((cfg0.win 9).blk t).view.read (Elt Ideal) (edgeMessages V c) := by
  show (cfg0.win 9).cut (grid0.coords t) ((dat0 V c).after 9 t) = _
  rw [after0_9]
  unfold out0_9
  rw [View.canon_unit_zero zero_offsets]
  simp only [View.ld_unit_zero (S := S6000x128) zero_offsets, View.ld_unit_zero (S := S128x128) zero_offsets,
    View.ld_unit_zero (S := S1x128) zero_offsets]
  refine out_block_eq t _ (edgeMessages V c) fun p j hr => ?_
  refine (stored_apply (iblk0 V c 0 t) (iblk0 V c 1 t) (iblk0 V c 2 t) (iblk0 V c 3 t) (iblk0 V c 4 t) (iblk0 V c 5 t)
    (iblk0 V c 6 t) (iblk0 V c 7 t) (iblk0 V c 8 t) p j).trans ?_
  exact messageT_congr (w1a_block V c t) (w1b_block V c t) (w1c_block V c t) (b1_block V c t) (w2_block V c t)
    (b2_block V c t) (funext fun q => src_block_apply V c t p q hr) (funext fun q => dst_block_apply V c t p q hr)
    (funext fun q => attr_block_apply V c t p q hr) j

/-- Every index of the output array lies in the block of the point its row number divided by 6000 names, and every
    point writes back. -/
theorem covered (i : S600000x128.Idx) :
    ∃ t : Fin cfg0.N, (cfg0.win 9).flush t = true ∧ i ∈ ((cfg0.win 9).blk t).view.set := by
  have hi0 : (i 0).val < 600000 := (i 0).isLt
  have hi1 : (i 1).val < 128 := (i 1).isLt
  have hN : cfg0.N = 100 := N_0
  have hq : (i 0).val / 6000 < cfg0.N := by rw [hN]; omega
  obtain ⟨e0, e1⟩ := (block_index ⟨(i 0).val / 6000, hq⟩).2.2.2.2.2.2.2.2.2
  refine ⟨⟨(i 0).val / 6000, hq⟩, flush0_9 _, ?_⟩
  show i ∈ ((View.whole main_v18).slice (win0_9.rect ⟨(i 0).val / 6000, hq⟩)).set
  rw [View.set_slice_whole, Rect.mem_set_unit]
  intro a
  match a with
  | ⟨0, _⟩ =>
    show win0_9.index ⟨(i 0).val / 6000, hq⟩ (0 : Fin 2) * 6000 ≤ (i 0).val
      ∧ (i 0).val < win0_9.index ⟨(i 0).val / 6000, hq⟩ (0 : Fin 2) * 6000 + 6000
    rw [e0]
    show (i 0).val / 6000 * 6000 ≤ (i 0).val ∧ (i 0).val < (i 0).val / 6000 * 6000 + 6000
    omega
  | ⟨1, _⟩ =>
    show win0_9.index ⟨(i 0).val / 6000, hq⟩ (1 : Fin 2) * 128 ≤ (i 1).val
      ∧ (i 1).val < win0_9.index ⟨(i 0).val / 6000, hq⟩ (1 : Fin 2) * 128 + 128
    rw [e1]
    omega

/-- Region 0 leaves in its output array the message of every edge. -/
theorem messages (c : Dev nD) :
    (dat0 (F := Ideal) V c).arrAt 9 cfg0.N
      = fun i => messageT (V c main_v8) (V c main_v10) (V c main_v12) (V c main_v16) (V c main_v13) (V c main_v17)
          (row (V c main_v5) (i 0)) (row (V c main_v6) (i 0)) (row (V c main_arg2) (i 0)) (i 1) :=
  (dat0 (F := Ideal) V c).arrAt_eq_of_cover 9 (edgeMessages V c) (fun t _ => flushed_eq V c t) covered

end Cert.KernelIdeal.Regions

end
-- ==== Proof.Reg1Val.lean ====
/-
  The gated update of the nodes, block by block.

  The second kernel region walks the 100000 nodes in 25 blocks of 4000 rows. At a block it forms two families of gate
  inputs, each an affine map into 384 columns (a product of the block's rows with a 128 × 384 weight array, plus a bias
  row): one from the sums the nodes received, one from the nodes' own features. Columns 0…127 feed the reset gate r,
  columns 128…255 the update gate z, columns 256…383 the candidate n, and the block it stores is
  (1 − z)·n + z·x with r, z logistic functions of the summed inputs and n = tanh(i_n + r·h_n).

  Here: (1) the stored block at row p, feature j is the gated update of row p (over the extended reals every format
  change is the identity, so the narrowed operands of the two products are the operands themselves); (2) the two
  row-blocked windows at point t hold rows 4000·t … 4000·t + 3999 of their arrays, and the four weight windows hold
  their whole arrays; (3) so what point t writes back is block t of ONE function of the arrays the region is entered
  at; (4) row r lies in the block of point r / 4000, and every point writes back; (5) hence the output array ends
  holding that function: the updated features of every node.
-/
import proofs.«414448_j16415365005578_2_alg».proof.Proof.Gen.KernelIdeal.Frame
import proofs.«414448_j16415365005578_2_alg».proof.Proof.Spec
import proofs.«414448_j16415365005578_2_alg».proof.Proof.LibPlainAny
import Idealize.ShloMosaic.Lib.ValueIdx
import Idealize.ShloMosaic.Lib.ValueLayout
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Regions

open Cert.KernelIdeal Cert.KernelIdeal.Gen Cert.Spec

/-! ## The body's stored value at one entry of a block -/

section NodePayload
open Idealize.ShloMosaic.ValueIdx

/-- Columns 0…127 of a 384-column array: the reset gate's inputs. -/
private theorem gate_slice0 (A : FVec Ideal S4000x384 .f32) (h : S4000x384.Slices ![0, 0] S4000x128) (p : Fin 4000) (j : Fin 128) :
    extractStridedSlice S4000x128 ![0, 0] A h (ix2 p j) = A (ix2 p (gate0 j)) :=
  extractStridedSlice_apply ![0, 0] A h (ix2 p j) (ix2 p (gate0 j)) fun a => by
    match a with
    | ⟨0, _⟩ => show p.val = 0 + p.val; omega
    | ⟨1, _⟩ => show j.val = 0 + j.val; omega

/-- Columns 128…255: the update gate's inputs. -/
private theorem gate_slice1 (A : FVec Ideal S4000x384 .f32) (h : S4000x384.Slices ![0, 128] S4000x128) (p : Fin 4000) (j : Fin 128) :
    extractStridedSlice S4000x128 ![0, 128] A h (ix2 p j) = A (ix2 p (gate1 j)) :=
  extractStridedSlice_apply ![0, 128] A h (ix2 p j) (ix2 p (gate1 j)) fun a => by
    match a with
    | ⟨0, _⟩ => show p.val = 0 + p.val; omega
    | ⟨1, _⟩ => show 128 + j.val = 128 + j.val; rfl

/-- Columns 256…383: the candidate's inputs. -/
private theorem gate_slice2 (A : FVec Ideal S4000x384 .f32) (h : S4000x384.Slices ![0, 256] S4000x128) (p : Fin 4000) (j : Fin 128) :
    extractStridedSlice S4000x128 ![0, 256] A h (ix2 p j) = A (ix2 p (gate2 j)) :=
  extractStridedSlice_apply ![0, 256] A h (ix2 p j) (ix2 p (gate2 j)) fun a => by
    match a with
    | ⟨0, _⟩ => show p.val = 0 + p.val; omega
    | ⟨1, _⟩ => show 256 + j.val = 256 + j.val; rfl

/-- One affine layer of the block: the product of the narrowed rows with the narrowed weights, plus the bias row,
    at row p and gate column g, is the affine gate input of row p. -/
private theorem node_affine (v : FVec Ideal S4000x128 .f32) (W : FVec Ideal S128x384 .f32) (b : FVec Ideal S1x384 .f32)
    (hb : S1x384.Broadcasts S4000x384) (hlt : FTy.bits .bf16 < FTy.bits .f32) (p : Fin 4000) (g : Fin 384) :
    addf (matmul dot_S4000x128_S128x384_S4000x384_1_0_0_1_n_n none (truncf .bf16 v hlt) (truncf .bf16 W hlt)
        (constant S4000x384 .f32 0x00000000#32)) (broadcastTo S4000x384 b hb) (ix2 p g)
      = affT W b (fun q => v (ix2 p q)) g := by
  show matmul (DotDims.plain 4000 128 384) none (truncf .bf16 v hlt) (truncf .bf16 W hlt)
        (constant ⟨2, ![4000, 384]⟩ .f32 0x00000000#32) (ix2 p g) + broadcastTo ⟨2, ![4000, 384]⟩ b hb (ix2 p g) = _
  rw [Rows.matmul_plain_any, broadcastTo_1b_ab_apply]
  rfl

/-- The gates combined, at row p and feature j of the block, from the two arrays of gate inputs. -/
private theorem gate_combine (A B : FVec Ideal S4000x384 .f32) (x : FVec Ideal S4000x128 .f32)
    (h0 : S4000x384.Slices ![0, 0] S4000x128) (h1 : S4000x384.Slices ![0, 128] S4000x128)
    (h2 : S4000x384.Slices ![0, 256] S4000x128) (p : Fin 4000) (j : Fin 128) :
    addf (mulf (subf (broadcast S4000x128 (Scalar.ofBits (F := Ideal) .f32 0x3F800000#32))
            (logistic (addf (extractStridedSlice S4000x128 ![0, 128] A h1) (extractStridedSlice S4000x128 ![0, 128] B h1))))
          (tanh (addf (extractStridedSlice S4000x128 ![0, 256] A h2)
            (mulf (logistic (addf (extractStridedSlice S4000x128 ![0, 0] A h0) (extractStridedSlice S4000x128 ![0, 0] B h0)))
              (extractStridedSlice S4000x128 ![0, 256] B h2)))))
        (mulf (logistic (addf (extractStridedSlice S4000x128 ![0, 128] A h1) (extractStridedSlice S4000x128 ![0, 128] B h1))) x)
        (ix2 p j)
      = gated (fun g => A (ix2 p g)) (fun g => B (ix2 p g)) (fun q => x (ix2 p q)) j := by
  simp only [gated]
  rw [← gate_slice0 A h0 p j, ← gate_slice0 B h0 p j, ← gate_slice1 A h1 p j, ← gate_slice1 B h1 p j,
    ← gate_slice2 A h2 p j, ← gate_slice2 B h2 p j]
  rfl

/-- What the body stores at row p, feature j of its block: the gated update of that row. -/
theorem node_payload (g x : FVec Ideal S4000x128 .f32) (Wi Wh : FVec Ideal S128x384 .f32) (bi bh : FVec Ideal S1x384 .f32)
    (p : Fin 4000) (j : Fin 128) :
    k1_pay1 (F := Ideal) g x Wi Wh bi bh (ix2 p j)
      = updateT Wi bi Wh bh (fun q => g (ix2 p q)) (fun q => x (ix2 p q)) j := by
  unfold k1_pay1 updateT
  simp only [shapeCast_self]
  refine (gate_combine _ _ x _ _ _ p j).trans ?_
  exact congrArg₂ (fun gi gh => gated gi gh (fun q => x (ix2 p q)) j)
    (funext fun q => node_affine g Wi bi _ _ p q) (funext fun q => node_affine x Wh bh _ _ p q)

end NodePayload

/-! ## From the blocks to the array -/

variable (V : (c : Dev nD) → (b : Ref sig .tc) → Buf (Elt Ideal) ((c : Thread nD τ).loc b))

private theorem node_hz : (![0, 0] : Fin 2 → Nat) = fun _ => 0 := funext fun a => by fin_cases a <;> rfl

/-- The windows' block indices over the grid: the three row-blocked windows sit at block (t, 0), the four
    whole-array windows at block (0, 0). -/
private theorem node_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The block of received sums at point t is rows 4000·t … 4000·t + 3999 of the array. -/
private theorem node_sums_block (c : Dev nD) (t : Fin cfg1.N) (y : S4000x128.Idx) (k : S100000x128.Idx)
    (hk0 : (k 0).val = 4000 * t.val + (y 0).val) (hk1 : (k 1).val = (y 1).val) :
    (iblk1 V c 0 t : Vec Ideal S4000x128 .f32) y = (V c main_v21 : S100000x128.Idx → EReal) k := by
  obtain ⟨e0, e1, -⟩ := node_idx_facts t
  unfold iblk1
  rw [View.read_apply]
  show V c main_v21 _ = V c main_v21 _
  congr 1
  funext a
  apply Fin.ext
  match a with
  | ⟨0, _⟩ => show win1_0.index t (0 : Fin 2) * 4000 + 1 * (y 0).val = (k 0).val; rw [e0, hk0]; omega
  | ⟨1, _⟩ => show win1_0.index t (1 : Fin 2) * 128 + 1 * (y 1).val = (k 1).val; rw [e1, hk1]; omega

/-- The block of node features at point t is the same rows of the feature array. -/
private theorem node_feats_block (c : Dev nD) (t : Fin cfg1.N) (y : S4000x128.Idx) (k : S100000x128.Idx)
    (hk0 : (k 0).val = 4000 * t.val + (y 0).val) (hk1 : (k 1).val = (y 1).val) :
    (iblk1 V c 1 t : Vec Ideal S4000x128 .f32) y = (V c main_arg0 : S100000x128.Idx → EReal) k := by
  obtain ⟨-, -, e0, e1, -⟩ := node_idx_facts t
  unfold iblk1
  rw [View.read_apply]
  show V c main_arg0 _ = V c main_arg0 _
  congr 1
  funext a
  apply Fin.ext
  match a with
  | ⟨0, _⟩ => show win1_1.index t (0 : Fin 2) * 4000 + 1 * (y 0).val = (k 0).val; rw [e0, hk0]; omega
  | ⟨1, _⟩ => show win1_1.index t (1 : Fin 2) * 128 + 1 * (y 1).val = (k 1).val; rw [e1, hk1]; omega

/-- The four weight windows hold their whole arrays at every point: block (0, 0) of an array the size of the block. -/
private theorem node_wi_block (c : Dev nD) (t : Fin cfg1.N) :
    (iblk1 V c 2 t : Vec Ideal S128x384 .f32) = (V c main_v14 : S128x384.Idx → EReal) := by
  obtain ⟨-, -, -, -, -, -, e0, e1, -⟩ := node_idx_facts t
  funext y
  unfold iblk1
  rw [View.read_apply]
  show V c main_v14 _ = V c main_v14 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 384 + 1 * (y 1).val = (y 1).val; rw [e1]; omega

private theorem node_bi_block (c : Dev nD) (t : Fin cfg1.N) :
    (iblk1 V c 3 t : Vec Ideal S1x384 .f32) = (V c main_v22 : S1x384.Idx → EReal) := by
  obtain ⟨-, -, -, -, -, -, -, -, e0, e1, -⟩ := node_idx_facts t
  funext y
  unfold iblk1
  rw [View.read_apply]
  show V c main_v22 _ = V c main_v22 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 384 + 1 * (y 1).val = (y 1).val; rw [e1]; omega

private theorem node_wh_block (c : Dev nD) (t : Fin cfg1.N) :
    (iblk1 V c 4 t : Vec Ideal S128x384 .f32) = (V c main_v15 : S128x384.Idx → EReal) := by
  obtain ⟨-, -, -, -, -, -, -, -, -, -, e0, e1, -⟩ := node_idx_facts t
  funext y
  unfold iblk1
  rw [View.read_apply]
  show V c main_v15 _ = V c main_v15 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 384 + 1 * (y 1).val = (y 1).val; rw [e1]; omega

private theorem node_bh_block (c : Dev nD) (t : Fin cfg1.N) :
    (iblk1 V c 5 t : Vec Ideal S1x384 .f32) = (V c main_v23 : S1x384.Idx → EReal) := by
  obtain ⟨-, -, -, -, -, -, -, -, -, -, -, -, e0, e1⟩ := node_idx_facts t
  funext y
  unfold iblk1
  rw [View.read_apply]
  show V c main_v23 _ = V c main_v23 y
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 384 + 1 * (y 1).val = (y 1).val; rw [e1]; omega

/-- The updated features of every node as one function of the arrays the region is entered at. -/
abbrev nodeUpdate (c : Dev nD) : S100000x128.Idx → EReal :=
  fun i => updateT (V c main_v14) (V c main_v22) (V c main_v15) (V c main_v23)
    (row (V c main_v21) (i 0)) (row (V c main_arg0) (i 0)) (i 1)

/-- A 4000 × 128 array whose entry at (p, j) is the gated update of row p at feature j is the block the body stores. -/
private theorem node_block_eq (g x : FVec Ideal S4000x128 .f32) (Wi Wh : FVec Ideal S128x384 .f32) (bi bh : FVec Ideal S1x384 .f32)
    (R : S4000x128.Idx → EReal)
    (h : ∀ (p : Fin 4000) (j : Fin 128),
      R (ValueIdx.ix2 p j) = updateT Wi bi Wh bh (fun q => g (ValueIdx.ix2 p q)) (fun q => x (ValueIdx.ix2 p q)) j) :
    k1_pay1 (F := Ideal) g x Wi Wh bi bh = R :=
  funext fun y => by
    rw [ValueIdx.eq_ix2 y]
    exact (node_payload g x Wi Wh bi bh (y 0) (y 1)).trans (h (y 0) (y 1)).symm

/-- The gated update of array row r is that of block row p when the two rows hold the same numbers. -/
private theorem node_update_congr (Wi Wh : Mat 128 384) (bi bh : Mat 1 384) (G X : Mat 100000 128)
    (g x : FVec Ideal S4000x128 .f32) (r : Fin 100000) (p : Fin 4000) (j' j : Fin 128)
    (hg : ∀ q : Fin 128, G (ValueIdx.ix2 r q) = g (ValueIdx.ix2 p q))
    (hx : ∀ q : Fin 128, X (ValueIdx.ix2 r q) = x (ValueIdx.ix2 p q)) (hj : j' = j) :
    updateT Wi bi Wh bh (row G r) (row X r) j'
      = updateT Wi bi Wh bh (fun q => g (ValueIdx.ix2 p q)) (fun q => x (ValueIdx.ix2 p q)) j := by
  subst hj
  rw [show row G r = fun q => g (ValueIdx.ix2 p q) from funext hg,
    show row X r = fun q => x (ValueIdx.ix2 p q) from funext hx]

/-- What point t writes back is block t of the updated features. -/
private theorem node_flushed (c : Dev nD) (t : Fin cfg1.N) :
    (dat1 (F := Ideal) V c).flushed 6 t = ((cfg1.win 6).blk t).view.read (Elt Ideal) (nodeUpdate V c) := by
  show (cfg1.win 6).cut (grid1.coords t) ((dat1 V c).after 6 t) = _
  rw [after1_6]
  unfold out1_6
  rw [View.canon_unit_zero node_hz]
  simp only [View.ld_unit_zero (S := S4000x128) node_hz, View.ld_unit_zero (S := S128x384) node_hz,
    View.ld_unit_zero (S := S1x384) node_hz]
  rw [node_wi_block, node_bi_block, node_wh_block, node_bh_block]
  show k1_pay1 (F := Ideal) (iblk1 V c 0 t) (iblk1 V c 1 t) (V c main_v14) (V c main_v15) (V c main_v22) (V c main_v23)
    = fun y : S4000x128.Idx => nodeUpdate V c (((cfg1.win 6).blk t).view.emb y)
  refine node_block_eq (iblk1 V c 0 t) (iblk1 V c 1 t) (V c main_v14) (V c main_v15) (V c main_v22) (V c main_v23) _ fun p j => ?_
  obtain ⟨-, -, -, -, e0, e1, -⟩ := node_idx_facts t
  have h0 : ((((cfg1.win 6).blk t).view.emb (ValueIdx.ix2 p j)) 0).val = 4000 * t.val + p.val := by
    show win1_6.index t (0 : Fin 2) * 4000 + 1 * p.val = _
    rw [e0]; omega
  have h1 : (((cfg1.win 6).blk t).view.emb (ValueIdx.ix2 p j)) 1 = j :=
    Fin.ext (by show win1_6.index t (1 : Fin 2) * 128 + 1 * j.val = _; rw [e1]; omega)
  exact node_update_congr (V c main_v14) (V c main_v15) (V c main_v22) (V c main_v23) (V c main_v21) (V c main_arg0)
    (iblk1 V c 0 t) (iblk1 V c 1 t) ((((cfg1.win 6).blk t).view.emb (ValueIdx.ix2 p j)) 0) p
    ((((cfg1.win 6).blk t).view.emb (ValueIdx.ix2 p j)) 1) j
    (fun q => (node_sums_block V c t (ValueIdx.ix2 p q)
      (ValueIdx.ix2 ((((cfg1.win 6).blk t).view.emb (ValueIdx.ix2 p j)) 0) q) h0 rfl).symm)
    (fun q => (node_feats_block V c t (ValueIdx.ix2 p q)
      (ValueIdx.ix2 ((((cfg1.win 6).blk t).view.emb (ValueIdx.ix2 p j)) 0) q) h0 rfl).symm)
    h1

/-- An index of the array lies in point t's block iff each coordinate lies in the block's range on its axis. -/
private theorem node_mem_blk (t : Fin cfg1.N) (i : S100000x128.Idx) :
    i ∈ ((cfg1.win 6).blk t).view.set
      ↔ ∀ a : Fin 2, win1_6.index t a * S4000x128.size a ≤ (i a).val
          ∧ (i a).val < win1_6.index t a * S4000x128.size a + S4000x128.size a := by
  show i ∈ ((View.whole main_v24).slice (win1_6.rect t)).set ↔ _
  rw [View.set_slice_whole, Rect.mem_set_unit]
  exact Iff.rfl

/-- Every node's row lies in the block of the point that holds it: row r in block r / 4000. -/
private theorem node_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : grid1.N = 25 := N_1
  have ht : (i 0).val / 4000 < cfg1.N := by show (i 0).val / 4000 < grid1.N; rw [hN]; omega
  obtain ⟨-, -, -, -, e0, e1, -⟩ := node_idx_facts ⟨(i 0).val / 4000, ht⟩
  refine ⟨⟨(i 0).val / 4000, ht⟩, flush1_6 _, ?_⟩
  rw [node_mem_blk]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [e1]; omega

/-- Region 1 leaves in its output array the updated features of every node. -/
theorem updated (c : Dev nD) :
    (dat1 (F := Ideal) V c).arrAt 6 cfg1.N
      = fun i => updateT (V c main_v14) (V c main_v22) (V c main_v15) (V c main_v23)
          (row (V c main_v21) (i 0)) (row (V c main_arg0) (i 0)) (i 1) :=
  (dat1 (F := Ideal) V c).arrAt_eq_of_cover 6 (nodeUpdate V c) (fun t _ => node_flushed V c t) node_cover

end Cert.KernelIdeal.Regions

end
-- ==== Proof.LibGather.lean ====
/-
  Reading a row gather at an element.

  jnp's `table[idx]` over a two-axis table of N rows prints as a gather whose start indices are an (n, 1) column of
  row numbers: the table's first axis is collapsed and start-indexed, its second axis is the one offset axis of the
  result, and the index vector lies along axis 1 of the column.  Result element (p, k) is then the table's element
  (r, k), where r is the p-th start index read as a signed integer and clamped into [0, N - 1].
-/
import Idealize.ShloMosaic.PureOps.ShapeOps
import Idealize.ShloMosaic.Lib.ValueIdx

namespace Idealize.ShloMosaic.RowGather

open Idealize.ShloMosaic Idealize.ShloMosaic.ValueIdx

/-- A list known to be one element long, read at any position, gives that element. -/
theorem getElem_of_eq_singleton {β : Type} {l : List β} {b : β} (h : l = [b]) (i : Nat) (hi : i < l.length) : l[i] = b := by
  subst h
  have : i = 0 := by simpa using hi
  subst this; rfl

section
variable {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (idx : IVec ⟨2, ![n, 1]⟩ w) (p : Fin n) (k : Fin C)
include hoff hcoll hob hsim hivd

/-- On the table's row axis the operand index is the clamped start index. -/
theorem operandIdx_row : (d.operandIdx (ix2 p k) idx (0 : Fin 2)).val = min (idx (ix2 p 0)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  show min (idx _).toInt.toNat (N - d.sliceSizes 0) = min (idx (ix2 p 0)).toInt.toNat (N - 1)
  rw [hsl]
  congr 3
  congr 1
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      simp [GatherDims.batchDims, Shape.kept, hoff, List.finRange]
    rw [getElem_of_eq_singleton hbd]
    rfl
  | ⟨1, _⟩ =>
    unfold GatherDims.siIdx
    rw [dif_pos (by rw [hivd])]
    apply Fin.ext
    show List.idxOf (0 : Fin 2) d.startIndexMap = 0
    rw [hsim]; simp

/-- On the table's column axis the operand index is the result's column. -/
theorem operandIdx_col : (d.operandIdx (ix2 p k) idx (1 : Fin 2)).val = k.val := by
  have hb : (1 : Fin 2) ∉ d.operandBatchingDims := by rw [hob]; exact List.not_mem_nil
  have hk : (1 : Fin 2) ∈ d.sKept := by rw [GatherDims.mem_sKept, hcoll, hob]; simp
  have hm : (1 : Fin 2) ∉ d.startIndexMap := by rw [hsim]; simp
  simp only [GatherDims.operandIdx, GatherDims.batchCoord_eq_zero _ _ _ hb, Nat.add_zero, GatherDims.start,
    dif_neg hm, Nat.zero_add]
  unfold GatherDims.offCoord
  rw [dif_pos hk, getElem_of_eq_singleton hoff]
  rfl

/-- Element (p, k) of a row gather is the table's element (r, k), r the p-th start index read signed and clamped into the
    table. -/
theorem gather_rows {α : Type} (x : (⟨2, ![N, C]⟩ : Shape).Idx → α) (hN : 0 < N) :
    Host.gather d x idx (ix2 p k) = x (ix2 ⟨min (idx (ix2 p 0)).toInt.toNat (N - 1), by omega⟩ k) := by
  unfold Host.gather
  congr 1
  funext a
  apply Fin.ext
  match a with
  | ⟨0, _⟩ => exact operandIdx_row d hoff hcoll hob hsim hivd idx p k
  | ⟨1, _⟩ => exact operandIdx_col d hoff hcoll hob hsim hivd idx p k
end

end Idealize.ShloMosaic.RowGather
-- ==== Proof.LibSegmentSum.lean ====
/-
  A sum of rows grouped by a list of row numbers (jax.ops.segment_sum; jnp's `x.at[idx].add(u)` with one index per
  update row), read at an element.

  The scatter-add prints as `Host.scatterAdd d x idx upd` with the scatter indices an (n, 1) column. At the ideal values
  element (r, k) of the result is x(r, k) plus the sum of upd(e, k) over the update rows e whose index, read as a SIGNED
  integer and not clamped, is r: an update whose index is negative or past the last row contributes nothing.
  The one-axis form (updates a list of n values, the operand a list of N values) reads the same way.
-/
import Idealize.ShloMosaic.PureOps.Ideal
import Idealize.ShloMosaic.PureOps.Contract
import Idealize.ShloMosaic.Lib.ValueIdx

noncomputable section

namespace Idealize.ShloMosaic.SegmentSum

open Idealize.ShloMosaic Idealize.ShloMosaic.ValueIdx

/-- A list with exactly one entry has that entry at every position it can be read at. -/
private theorem getElem_eq_of_singleton {β : Type} {l : List β} {b : β} (h : l = [b]) {i : Nat} (hi : i < l.length) : l[i] = b := by
  subst h
  match i, hi with
  | 0, _ => rfl
  | i + 1, hi => exact absurd hi (by simp)

/-! ## Rows: where an update element lands

  With the operand's row axis both inserted and start-indexed, the updates' column axis their one window axis, and the
  index vector along the column of scatter indices, update element (e, k') starts at row idx(e), column 0, and its window
  coordinate is (0, k'): it lands at (idx(e), k') when idx(e), read signed, is a row of the operand, and nowhere
  otherwise. -/

section rowsAux
variable {N n C w : Nat} (d : ScatterDims ⟨2, ![N, C]⟩ ⟨2, ![n, 1]⟩ ⟨2, ![n, C]⟩)
    (idx : IVec ⟨2, ![n, 1]⟩ w) (e : Fin n) (k' : Fin C)

/-- The operand's axes that are not inserted: the column axis alone. -/
theorem sKept_rows (hiw : d.insertedWindowDims = [0]) : d.sKept = [(1 : Fin 2)] := by
  show Shape.kept _ d.insertedWindowDims = [(1 : Fin 2)]
  rw [hiw]; rfl

/-- The updates' scatter axes: the row axis alone. -/
theorem uScatter_rows (huw : d.updateWindowDims = [1]) : d.uScatter = [(0 : Fin 2)] := by
  show Shape.kept _ d.updateWindowDims = [(0 : Fin 2)]
  rw [huw]; rfl

/-- On the row axis the window of update element (e, k') starts at the e-th scatter index, read signed. -/
theorem start_row (huw : d.updateWindowDims = [1]) (hsd : d.scatterDimsToOperandDims = [0]) (hivd : d.indexVectorDim = 1) :
    d.start (ix2 e k') idx (0 : Fin 2) = (idx (ix2 e (0 : Fin 1))).toInt := by
  have hm : (0 : Fin 2) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix2 e k') (d.uScatter[_]'_)).val = e.val
    rw [getElem_eq_of_singleton (uScatter_rows d huw)]
  | ⟨1, _⟩ =>
    unfold ScatterDims.siIdx
    rw [dif_pos (by rw [hivd])]
    apply Fin.ext
    show List.idxOf (0 : Fin 2) d.scatterDimsToOperandDims = 0
    rw [hsd]; simp

/-- On the column axis the window starts at 0: no scatter index addresses it. -/
theorem start_col (hsd : d.scatterDimsToOperandDims = [0]) : d.start (ix2 e k') idx (1 : Fin 2) = 0 := by
  have hm : (1 : Fin 2) ∉ d.scatterDimsToOperandDims := by rw [hsd]; simp
  unfold ScatterDims.start
  rw [dif_neg hm]

/-- The row axis is inserted: its window coordinate is 0. -/
theorem window_row (hiw : d.insertedWindowDims = [0]) : d.window (ix2 e k') (0 : Fin 2) = 0 := by
  have hk : (0 : Fin 2) ∉ d.sKept := by rw [sKept_rows d hiw]; simp
  unfold ScatterDims.window
  rw [dif_neg hk]

/-- The column axis carries the updates' window axis: its window coordinate is the update's column. -/
theorem window_col (huw : d.updateWindowDims = [1]) (hiw : d.insertedWindowDims = [0]) : d.window (ix2 e k') (1 : Fin 2) = k'.val := by
  have hk : (1 : Fin 2) ∈ d.sKept := by rw [sKept_rows d hiw]; exact List.mem_singleton.mpr rfl
  unfold ScatterDims.window
  rw [dif_pos hk, getElem_eq_of_singleton huw]
  rfl

/-- Update element (e, k') lands at (r, k) exactly when the e-th scatter index, read signed, is r and k' = k: the bounds
    on both axes then hold because r and k are positions in the operand. -/
theorem resultIdx_rows_iff (huw : d.updateWindowDims = [1]) (hiw : d.insertedWindowDims = [0])
    (hsd : d.scatterDimsToOperandDims = [0]) (hivd : d.indexVectorDim = 1) (r : Fin N) (k : Fin C) :
    d.resultIdx? (ix2 e k') idx = some (ix2 r k) ↔ (idx (ix2 e (0 : Fin 1))).toInt = (r.val : ℤ) ∧ k' = k := by
  have h0 := start_row d idx e k' huw hsd hivd
  have h1 := start_col d idx e k' hsd
  have w0 := window_row d e k' hiw
  have w1 := window_col d e k' huw hiw
  unfold ScatterDims.resultIdx?
  split
  · rename_i h
    rw [Option.some.injEq]
    constructor
    · intro hf
      have a0 : (d.start (ix2 e k') idx (0 : Fin 2) + (d.window (ix2 e k') (0 : Fin 2) : ℤ)).toNat = r.val :=
        congrArg (fun f => (f (0 : Fin 2)).val) hf
      have a1 : (d.start (ix2 e k') idx (1 : Fin 2) + (d.window (ix2 e k') (1 : Fin 2) : ℤ)).toNat = k.val :=
        congrArg (fun f => (f (1 : Fin 2)).val) hf
      have b0 := (h (0 : Fin 2)).1
      rw [h0, w0] at a0 b0
      rw [h1, w1] at a1
      refine ⟨by omega, Fin.ext (by omega)⟩
    · rintro ⟨hr, rfl⟩
      funext a
      match a with
      | ⟨0, _⟩ =>
        apply Fin.ext
        show (d.start (ix2 e k') idx (0 : Fin 2) + (d.window (ix2 e k') (0 : Fin 2) : ℤ)).toNat = r.val
        rw [h0, w0, hr]; omega
      | ⟨1, _⟩ =>
        apply Fin.ext
        show (d.start (ix2 e k') idx (1 : Fin 2) + (d.window (ix2 e k') (1 : Fin 2) : ℤ)).toNat = k'.val
        rw [h1, w1]; omega
  · rename_i h
    constructor
    · intro hf; exact absurd hf (by simp)
    · rintro ⟨hr, rfl⟩
      refine absurd (fun a => ?_) h
      match a with
      | ⟨0, _⟩ =>
        show 0 ≤ d.start (ix2 e k') idx (0 : Fin 2) + (d.window (ix2 e k') (0 : Fin 2) : ℤ) ∧
          d.start (ix2 e k') idx (0 : Fin 2) + (d.window (ix2 e k') (0 : Fin 2) : ℤ) < ((N : ℕ) : ℤ)
        rw [h0, w0, hr]; have := r.isLt; omega
      | ⟨1, _⟩ =>
        show 0 ≤ d.start (ix2 e k') idx (1 : Fin 2) + (d.window (ix2 e k') (1 : Fin 2) : ℤ) ∧
          d.start (ix2 e k') idx (1 : Fin 2) + (d.window (ix2 e k') (1 : Fin 2) : ℤ) < ((C : ℕ) : ℤ)
        rw [h1, w1]; have := k'.isLt; omega

end rowsAux

section rows
variable {N n C w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w)
include huw hiw hsd hivd

/-- Element (r, k) of a scatter-add of rows: the operand's element plus the update rows whose index is r, at column k. -/
theorem scatterAdd_rows {φ : FTy} (x : FVec Ideal ⟨2, ![N, C]⟩ φ) (upd : FVec Ideal ⟨2, ![n, C]⟩ φ) (r : Fin N) (k : Fin C) :
    Host.scatterAdd d x idx upd (ix2 r k)
      = x (ix2 r k) + ∑ e : Fin n, if (idx (ix2 e (0 : Fin 1))).toInt = (r.val : ℤ) then upd (ix2 e k) else 0 := by
  have hlands := fun (e : Fin n) (b : Fin C) => resultIdx_rows_iff d idx e b huw hiw hsd hivd r k
  unfold Host.scatterAdd
  rw [Ideal.hostScatterAdd_def]
  unfold Ideal.hostScatterAdd
  congr 1
  rw [Finset.sum_filter, sum_idx2]
  refine Finset.sum_congr rfl fun e _ => ?_
  by_cases hr : (idx (ix2 e (0 : Fin 1))).toInt = (r.val : ℤ)
  · rw [if_pos hr, Finset.sum_eq_single k]
    · rw [if_pos ((hlands e k).2 ⟨hr, rfl⟩)]
    · intro b _ hb
      rw [if_neg fun h => hb ((hlands e b).1 h).2]
    · intro hk; exact absurd (Finset.mem_univ k) hk
  · rw [if_neg hr]
    refine Finset.sum_eq_zero fun b _ => ?_
    rw [if_neg fun h => hr ((hlands e b).1 h).1]

end rows

/-! ## Values: where an update lands

  The one-axis form: the operand's only axis is inserted and start-indexed and the updates have no window axis, so
  update e starts at position idx(e) with window coordinate 0, and lands there when idx(e), read signed, is a position of
  the operand. -/

/-- A sum over the positions of a list of n values is the sum over their coordinates. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

section valsAux
variable {N n w : Nat} (d : ScatterDims ⟨1, ![N]⟩ ⟨2, ![n, 1]⟩ ⟨1, ![n]⟩) (idx : IVec ⟨2, ![n, 1]⟩ w) (e : Fin n)

/-- The operand's only axis is inserted: none is kept. -/
theorem sKept_vals (hiw : d.insertedWindowDims = [0]) : d.sKept = [] := by
  show Shape.kept _ d.insertedWindowDims = []
  rw [hiw]; rfl

/-- The updates' only axis is a scatter axis. -/
theorem uScatter_vals (huw : d.updateWindowDims = []) : d.uScatter = [(0 : Fin 1)] := by
  show Shape.kept _ d.updateWindowDims = [(0 : Fin 1)]
  rw [huw]; rfl

/-- The window of update e starts at the e-th scatter index, read signed. -/
theorem start_val (huw : d.updateWindowDims = []) (hsd : d.scatterDimsToOperandDims = [0]) (hivd : d.indexVectorDim = 1) :
    d.start (ix1 e) idx (0 : Fin 1) = (idx (ix2 e (0 : Fin 1))).toInt := by
  have hm : (0 : Fin 1) ∈ d.scatterDimsToOperandDims := by rw [hsd]; exact List.mem_singleton.mpr rfl
  unfold ScatterDims.start
  rw [dif_pos hm]
  refine congrArg (fun q => (idx q).toInt) ?_
  funext b
  match b with
  | ⟨0, _⟩ =>
    unfold ScatterDims.siIdx
    rw [dif_neg (by rw [hivd]; exact Nat.zero_ne_one)]
    unfold ScatterDims.siCoord
    apply Fin.ext
    show ((ix1 e) (d.uScatter[_]'_)).val = e.val
    rw [getElem_eq_of_singleton (uScatter_vals d huw)]
  | ⟨1, _⟩ =>
    unfold ScatterDims.siIdx
    rw [dif_pos (by rw [hivd])]
    apply Fin.ext
    show List.idxOf (0 : Fin 1) d.scatterDimsToOperandDims = 0
    rw [hsd]; simp

/-- The operand's axis is inserted: the window coordinate is 0. -/
theorem window_val (hiw : d.insertedWindowDims = [0]) : d.window (ix1 e) (0 : Fin 1) = 0 := by
  have hk : (0 : Fin 1) ∉ d.sKept := by rw [sKept_vals d hiw]; exact List.not_mem_nil
  unfold ScatterDims.window
  rw [dif_neg hk]

/-- Update e lands at position r exactly when the e-th scatter index, read signed, is r. -/
theorem resultIdx_vals_iff (huw : d.updateWindowDims = []) (hiw : d.insertedWindowDims = [0])
    (hsd : d.scatterDimsToOperandDims = [0]) (hivd : d.indexVectorDim = 1) (r : Fin N) :
    d.resultIdx? (ix1 e) idx = some (ix1 r) ↔ (idx (ix2 e (0 : Fin 1))).toInt = (r.val : ℤ) := by
  have h0 := start_val d idx e huw hsd hivd
  have w0 := window_val d e hiw
  unfold ScatterDims.resultIdx?
  split
  · rename_i h
    rw [Option.some.injEq]
    constructor
    · intro hf
      have a0 : (d.start (ix1 e) idx (0 : Fin 1) + (d.window (ix1 e) (0 : Fin 1) : ℤ)).toNat = r.val :=
        congrArg (fun f => (f (0 : Fin 1)).val) hf
      have b0 := (h (0 : Fin 1)).1
      rw [h0, w0] at a0 b0
      omega
    · intro hr
      funext a
      match a with
      | ⟨0, _⟩ =>
        apply Fin.ext
        show (d.start (ix1 e) idx (0 : Fin 1) + (d.window (ix1 e) (0 : Fin 1) : ℤ)).toNat = r.val
        rw [h0, w0, hr]; omega
  · rename_i h
    constructor
    · intro hf; exact absurd hf (by simp)
    · intro hr
      refine absurd (fun a => ?_) h
      match a with
      | ⟨0, _⟩ =>
        show 0 ≤ d.start (ix1 e) idx (0 : Fin 1) + (d.window (ix1 e) (0 : Fin 1) : ℤ) ∧
          d.start (ix1 e) idx (0 : Fin 1) + (d.window (ix1 e) (0 : Fin 1) : ℤ) < ((N : ℕ) : ℤ)
        rw [h0, w0, hr]; have := r.isLt; omega

end valsAux

section vals
variable {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w)
include huw hiw hsd hivd

/-- Entry r of a scatter-add of values: the operand's entry plus the updates whose index is r. -/
theorem scatterAdd_vals {φ : FTy} (x : FVec Ideal ⟨1, ![N]⟩ φ) (upd : FVec Ideal ⟨1, ![n]⟩ φ) (r : Fin N) :
    Host.scatterAdd d x idx upd (ix1 r)
      = x (ix1 r) + ∑ e : Fin n, if (idx (ix2 e (0 : Fin 1))).toInt = (r.val : ℤ) then upd (ix1 e) else 0 := by
  have hlands := fun (e : Fin n) => resultIdx_vals_iff d idx e huw hiw hsd hivd r
  unfold Host.scatterAdd
  rw [Ideal.hostScatterAdd_def]
  unfold Ideal.hostScatterAdd
  congr 1
  rw [Finset.sum_filter, sum_idx1]
  exact Finset.sum_congr rfl fun e _ => if_congr (hlands e) rfl rfl

end vals

end Idealize.ShloMosaic.SegmentSum

end
-- ==== Proof.HostVal.lean ====
/-
  What the host lines around the two kernel regions compute, at the ideal values, as functions of the arguments.

  Before the first region: the two rows of the edge list become columns of row numbers, the node features (narrowed,
  which changes nothing over the reals) are gathered at those rows — a start index is read signed and clamped into the
  table —, the first weight matrix is cut into three blocks of 128 columns and every weight matrix is transposed, and
  the bias lists become one-row arrays. Between the regions: the messages are summed into zeros at the rows named by
  the raw destination numbers.
-/
import proofs.«414448_j16415365005578_2_alg».proof.Proof.Gen.KernelIdeal.Frame
import proofs.«414448_j16415365005578_2_alg».proof.Proof.Spec
import proofs.«414448_j16415365005578_2_alg».proof.Proof.LibGather
import proofs.«414448_j16415365005578_2_alg».proof.Proof.LibSegmentSum
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

open Idealize.ShloMosaic Idealize.ShloMosaic.TcCoe Idealize.SL.Sem Idealize.ShloMosaic.StableHlo
open Idealize.ShloMosaic.ValueIdx

namespace Cert.KernelIdeal.Host

open Cert.KernelIdeal Cert.KernelIdeal.Gen Cert.Spec

/-! ## Layout operations at an index -/

/-- Row `a` of the edge list, sliced out, flattened and stood up as a column, read at edge `e`. -/
theorem column_apply (ei : Edges) (a : Fin 2) (o : ℕ) (ho : a.val = o) (hs : S2x600000.Slices ![o, 0] S1x600000) (e : Fin 600000)
    (z : Fin 1) :
    broadcastInDim S600000x1 ![0] bcast_S600000_S600000x1_0
        (shapeCast S600000 (extractStridedSlice S1x600000 ![o, 0] ei hs) shapeCasts_S1x600000_S600000) (ix2 e z)
      = ei (ix2 a e) := by
  rw [broadcastInDim_apply ![0] bcast_S600000_S600000x1_0 _ (ix2 e z) (ix1 e) (fun b => by
    match b with
    | ⟨0, _⟩ => show e.val = if (600000 : ℕ) = 1 then 0 else e.val; rw [if_neg (by decide)])]
  rw [shapeCast_apply _ shapeCasts_S1x600000_S600000 (ix1 e) (ix2 (0 : Fin 1) e) (by
    rw [Shape.rowMajor_val_two, Shape.rowMajor_val_one]; show 0 * 600000 + e.val = e.val; omega)]
  exact extractStridedSlice_apply _ ei hs (ix2 (0 : Fin 1) e) (ix2 a e) (fun b => by
    match b with
    | ⟨0, _⟩ => show a.val = o + 0; omega
    | ⟨1, _⟩ => show e.val = 0 + e.val; omega)

/-- A block of 128 columns of the first weight matrix, transposed, read at (q, k). -/
theorem block_apply (W1 : Mat 128 384) (o : ℕ) (hs : S128x384.Slices ![0, o] S128x128) (q k : Fin 128) (g : Fin 384)
    (hg : g.val = o + q.val) :
    transpose S128x128 [1, 0] (extractStridedSlice S128x128 ![0, o] W1 hs) transposes_S128x128_S128x128_1_0 (ix2 q k)
      = W1 (ix2 k g) := by
  rw [transpose_ix2_apply]
  exact extractStridedSlice_apply _ W1 hs (ix2 k q) (ix2 k g) (fun b => by
    match b with
    | ⟨0, _⟩ => show k.val = 0 + k.val; omega
    | ⟨1, _⟩ => show g.val = o + q.val; exact hg)

variable (m : (ℓ : Loc nD τ sig) → Buf (Elt Ideal) ℓ) (ρ : Dev nD → PrngReg)

/-! ## The arguments, by name -/

abbrev nodes (c : Dev nD) : Mat 100000 128 := m ((c : Thread nD τ).loc main_arg0)
abbrev edges (c : Dev nD) : Edges := m ((c : Thread nD τ).loc main_arg1)
abbrev edgeFeat (c : Dev nD) : Mat 600000 128 := m ((c : Thread nD τ).loc main_arg2)
abbrev w1 (c : Dev nD) : Mat 128 384 := m ((c : Thread nD τ).loc main_arg3)
abbrev b1 (c : Dev nD) : Lst 128 := m ((c : Thread nD τ).loc main_arg4)
abbrev w2 (c : Dev nD) : Mat 128 128 := m ((c : Thread nD τ).loc main_arg5)
abbrev b2 (c : Dev nD) : Lst 128 := m ((c : Thread nD τ).loc main_arg6)
abbrev wi (c : Dev nD) : Mat 384 128 := m ((c : Thread nD τ).loc main_arg7)
abbrev bi (c : Dev nD) : Lst 384 := m ((c : Thread nD τ).loc main_arg8)
abbrev wh (c : Dev nD) : Mat 384 128 := m ((c : Thread nD τ).loc main_arg9)
abbrev bh (c : Dev nD) : Lst 384 := m ((c : Thread nD τ).loc main_arg10)

/-! ## The contents the first region is entered at -/

theorem entry0_src (c : Dev nD) : V4 m ρ c main_v5
    = Host.gather gather_S100000x128_S600000x1_S600000x128_1_0_n_n_0_1_1128 (truncf (F := Ideal) .bf16 (nodes m c) bitsLt_bf16_f32)
        (broadcastInDim S600000x1 ![0] bcast_S600000_S600000x1_0 (shapeCast S600000 (extractStridedSlice S1x600000 ![0, 0] (edges m c) slices_S2x600000_S1x600000_0_0) shapeCasts_S1x600000_S600000)) := by
  show StableHlo.after hostOps0_3 (StableHlo.after hostOps0_2 (StableHlo.after hostOps0_1 (StableHlo.after hostOps0 (W0 m ρ c)))) (Proc.devRef .tc main_v5) = _
  after_results
  rfl

theorem entry0_dst (c : Dev nD) : V4 m ρ c main_v6
    = Host.gather gather_S100000x128_S600000x1_S600000x128_1_0_n_n_0_1_1128 (truncf (F := Ideal) .bf16 (nodes m c) bitsLt_bf16_f32)
        (broadcastInDim S600000x1 ![0] bcast_S600000_S600000x1_0 (shapeCast S600000 (extractStridedSlice S1x600000 ![1, 0] (edges m c) slices_S2x600000_S1x600000_1_0) shapeCasts_S1x600000_S600000)) := by
  show StableHlo.after hostOps0_3 (StableHlo.after hostOps0_2 (StableHlo.after hostOps0_1 (StableHlo.after hostOps0 (W0 m ρ c)))) (Proc.devRef .tc main_v6) = _
  after_results
  rfl

theorem entry0_edgeFeat (c : Dev nD) : V4 m ρ c main_arg2 = edgeFeat m c := by
  show StableHlo.after hostOps0_3 (StableHlo.after hostOps0_2 (StableHlo.after hostOps0_1 (StableHlo.after hostOps0 (W0 m ρ c)))) (Proc.devRef .tc main_arg2) = _
  after_results

theorem entry0_w1a (c : Dev nD) : V4 m ρ c main_v8
    = transpose S128x128 [1, 0] (extractStridedSlice S128x128 ![0, 0] (w1 m c) slices_S128x384_S128x128_0_0) transposes_S128x128_S128x128_1_0 := by
  show StableHlo.after hostOps0_3 (StableHlo.after hostOps0_2 (StableHlo.after hostOps0_1 (StableHlo.after hostOps0 (W0 m ρ c)))) (Proc.devRef .tc main_v8) = _
  after_results

theorem entry0_w1b (c : Dev nD) : V4 m ρ c main_v10
    = transpose S128x128 [1, 0] (extractStridedSlice S128x128 ![0, 128] (w1 m c) slices_S128x384_S128x128_0_128) transposes_S128x128_S128x128_1_0 := by
  show StableHlo.after hostOps0_3 (StableHlo.after hostOps0_2 (StableHlo.after hostOps0_1 (StableHlo.after hostOps0 (W0 m ρ c)))) (Proc.devRef .tc main_v10) = _
  after_results

theorem entry0_w1c (c : Dev nD) : V4 m ρ c main_v12
    = transpose S128x128 [1, 0] (extractStridedSlice S128x128 ![0, 256] (w1 m c) slices_S128x384_S128x128_0_256) transposes_S128x128_S128x128_1_0 := by
  show StableHlo.after hostOps0_3 (StableHlo.after hostOps0_2 (StableHlo.after hostOps0_1 (StableHlo.after hostOps0 (W0 m ρ c)))) (Proc.devRef .tc main_v12) = _
  after_results

theorem entry0_w2 (c : Dev nD) : V4 m ρ c main_v13 = transpose S128x128 [1, 0] (w2 m c) transposes_S128x128_S128x128_1_0 := by
  show StableHlo.after hostOps0_3 (StableHlo.after hostOps0_2 (StableHlo.after hostOps0_1 (StableHlo.after hostOps0 (W0 m ρ c)))) (Proc.devRef .tc main_v13) = _
  after_results

theorem entry0_b1 (c : Dev nD) : V4 m ρ c main_v16 = shapeCast S1x128 (b1 m c) shapeCasts_S128_S1x128 := by
  show StableHlo.after hostOps0_3 (StableHlo.after hostOps0_2 (StableHlo.after hostOps0_1 (StableHlo.after hostOps0 (W0 m ρ c)))) (Proc.devRef .tc main_v16) = _
  after_results
  rfl

theorem entry0_b2 (c : Dev nD) : V4 m ρ c main_v17 = shapeCast S1x128 (b2 m c) shapeCasts_S128_S1x128 := by
  show StableHlo.after hostOps0_3 (StableHlo.after hostOps0_2 (StableHlo.after hostOps0_1 (StableHlo.after hostOps0 (W0 m ρ c)))) (Proc.devRef .tc main_v17) = _
  after_results
  rfl

/-! ### The same, at an index -/

theorem entry0_src_apply (c : Dev nD) (e : Fin 600000) (k : Fin 128) :
    row (V4 m ρ c main_v5) e k = row (nodes m c) (clampRow (src (edges m c) e)) k := by
  unfold row
  rw [entry0_src]
  refine (RowGather.gather_rows gather_S100000x128_S600000x1_S600000x128_1_0_n_n_0_1_1128 rfl rfl rfl rfl rfl _ e k _ (by decide)).trans ?_
  refine congrArg (fun r => nodes m c (ix2 r k)) (Fin.ext ?_)
  show min (BitVec.toInt _).toNat 99999 = min (src (edges m c) e).toInt.toNat 99999
  rw [column_apply (edges m c) 0 0 rfl slices_S2x600000_S1x600000_0_0 e 0]
  rfl

theorem entry0_dst_apply (c : Dev nD) (e : Fin 600000) (k : Fin 128) :
    row (V4 m ρ c main_v6) e k = row (nodes m c) (clampRow (dst (edges m c) e)) k := by
  unfold row
  rw [entry0_dst]
  refine (RowGather.gather_rows gather_S100000x128_S600000x1_S600000x128_1_0_n_n_0_1_1128 rfl rfl rfl rfl rfl _ e k _ (by decide)).trans ?_
  refine congrArg (fun r => nodes m c (ix2 r k)) (Fin.ext ?_)
  show min (BitVec.toInt _).toNat 99999 = min (dst (edges m c) e).toInt.toNat 99999
  rw [column_apply (edges m c) 1 1 rfl slices_S2x600000_S1x600000_1_0 e 0]
  rfl

theorem entry0_b1_apply (c : Dev nD) (k : Fin 128) : (V4 m ρ c main_v16 : Mat 1 128) (ix2 0 k) = b1 m c (ix1 k) := by
  rw [entry0_b1]; exact shapeCast_a_1a_apply _ _ 0 k

theorem entry0_b2_apply (c : Dev nD) (k : Fin 128) : (V4 m ρ c main_v17 : Mat 1 128) (ix2 0 k) = b2 m c (ix1 k) := by
  rw [entry0_b2]; exact shapeCast_a_1a_apply _ _ 0 k

/-! ## Between the regions, and the contents the second region is entered at -/

/-- The destination numbers as a list, as the first stretch of host lines leaves them. -/
theorem dstList (c : Dev nD) : W4 m ρ c (Proc.devRef .tc main_v3)
    = shapeCast S600000 (extractStridedSlice S1x600000 ![1, 0] (edges m c) slices_S2x600000_S1x600000_1_0) shapeCasts_S1x600000_S600000 := by
  show StableHlo.after hostOps0_3 (StableHlo.after hostOps0_2 (StableHlo.after hostOps0_1 (StableHlo.after hostOps0 (W0 m ρ c)))) (Proc.devRef .tc main_v3) = _
  after_results
  rfl

theorem entry1_received (c : Dev nD) : V6 m ρ c main_v21
    = Host.scatterAdd scatter_S100000x128_S600000x1_S600000x128_1_0_0_1
        (broadcastInDim S100000x128 ![] bcast_S_S100000x128 (constant (F := Ideal) S_ .f32 0x00000000#32))
        (broadcastInDim S600000x1 ![0] bcast_S600000_S600000x1_0 (shapeCast S600000 (extractStridedSlice S1x600000 ![1, 0] (edges m c) slices_S2x600000_S1x600000_1_0) shapeCasts_S1x600000_S600000))
        ((dat0 (V4 m ρ) c).arrAt 9 cfg0.N) := by
  show StableHlo.after hostOps1 (W5 m ρ c) (Proc.devRef .tc main_v21) = _
  after_results
  rw [show W5 m ρ c (Proc.devRef .tc main_v3) = W4 m ρ c (Proc.devRef .tc main_v3) from W5_of_ne m ρ c main_v3 (by decide), dstList,
    show W5 m ρ c (Proc.devRef .tc main_v18) = (dat0 (V4 m ρ) c).arrAt 9 cfg0.N from W5_arr m ρ c 9]

theorem entry1_nodes (c : Dev nD) : V6 m ρ c main_arg0 = nodes m c := by
  show StableHlo.after hostOps1 (W5 m ρ c) (Proc.devRef .tc main_arg0) = _
  after_results
  rw [show W5 m ρ c (Proc.devRef .tc main_arg0) = W4 m ρ c (Proc.devRef .tc main_arg0) from W5_of_ne m ρ c main_arg0 (by decide)]
  show StableHlo.after hostOps0_3 (StableHlo.after hostOps0_2 (StableHlo.after hostOps0_1 (StableHlo.after hostOps0 (W0 m ρ c)))) (Proc.devRef .tc main_arg0) = _
  after_results

theorem entry1_wi (c : Dev nD) : V6 m ρ c main_v14 = transpose S128x384 [1, 0] (wi m c) transposes_S384x128_S128x384_1_0 := by
  show StableHlo.after hostOps1 (W5 m ρ c) (Proc.devRef .tc main_v14) = _
  after_results
  rw [show W5 m ρ c (Proc.devRef .tc main_v14) = W4 m ρ c (Proc.devRef .tc main_v14) from W5_of_ne m ρ c main_v14 (by decide)]
  show StableHlo.after hostOps0_3 (StableHlo.after hostOps0_2 (StableHlo.after hostOps0_1 (StableHlo.after hostOps0 (W0 m ρ c)))) (Proc.devRef .tc main_v14) = _
  after_results

theorem entry1_wh (c : Dev nD) : V6 m ρ c main_v15 = transpose S128x384 [1, 0] (wh m c) transposes_S384x128_S128x384_1_0 := by
  show StableHlo.after hostOps1 (W5 m ρ c) (Proc.devRef .tc main_v15) = _
  after_results
  rw [show W5 m ρ c (Proc.devRef .tc main_v15) = W4 m ρ c (Proc.devRef .tc main_v15) from W5_of_ne m ρ c main_v15 (by decide)]
  show StableHlo.after hostOps0_3 (StableHlo.after hostOps0_2 (StableHlo.after hostOps0_1 (StableHlo.after hostOps0 (W0 m ρ c)))) (Proc.devRef .tc main_v15) = _
  after_results

theorem entry1_bi (c : Dev nD) : V6 m ρ c main_v22 = shapeCast S1x384 (bi m c) shapeCasts_S384_S1x384 := by
  show StableHlo.after hostOps1 (W5 m ρ c) (Proc.devRef .tc main_v22) = _
  after_results
  rw [show W5 m ρ c (Proc.devRef .tc main_arg8) = W4 m ρ c (Proc.devRef .tc main_arg8) from W5_of_ne m ρ c main_arg8 (by decide)]
  show shapeCast _ (StableHlo.after hostOps0_3 (StableHlo.after hostOps0_2 (StableHlo.after hostOps0_1 (StableHlo.after hostOps0 (W0 m ρ c)))) (Proc.devRef .tc main_arg8)) _ = _
  after_results
  rfl

theorem entry1_bh (c : Dev nD) : V6 m ρ c main_v23 = shapeCast S1x384 (bh m c) shapeCasts_S384_S1x384 := by
  show StableHlo.after hostOps1 (W5 m ρ c) (Proc.devRef .tc main_v23) = _
  after_results
  rw [show W5 m ρ c (Proc.devRef .tc main_arg10) = W4 m ρ c (Proc.devRef .tc main_arg10) from W5_of_ne m ρ c main_arg10 (by decide)]
  show shapeCast _ (StableHlo.after hostOps0_3 (StableHlo.after hostOps0_2 (StableHlo.after hostOps0_1 (StableHlo.after hostOps0 (W0 m ρ c)))) (Proc.devRef .tc main_arg10)) _ = _
  after_results
  rfl

/-- The summed messages at node n, feature k, whatever the messages are: the zero array plus, over the edges whose raw
    destination number is n, the message's feature k. -/
theorem received_apply (c : Dev nD) (msg : Mat 600000 128) (n : Fin 100000) (k : Fin 128) :
    Host.scatterAdd scatter_S100000x128_S600000x1_S600000x128_1_0_0_1
        (broadcastInDim S100000x128 ![] bcast_S_S100000x128 (constant (F := Ideal) S_ .f32 0x00000000#32))
        (broadcastInDim S600000x1 ![0] bcast_S600000_S600000x1_0 (shapeCast S600000 (extractStridedSlice S1x600000 ![1, 0] (edges m c) slices_S2x600000_S1x600000_1_0) shapeCasts_S1x600000_S600000))
        msg (ix2 n k)
      = received (edges m c) (fun e => row msg e) n k := by
  refine (SegmentSum.scatterAdd_rows scatter_S100000x128_S600000x1_S600000x128_1_0_0_1 rfl rfl rfl rfl _ _ msg n k).trans ?_
  unfold received
  refine congrArg₂ (· + ·) ((broadcastInDim_scalar_apply _ _ _).trans rfl) (Finset.sum_congr rfl fun e _ => ?_)
  rw [column_apply (edges m c) 1 1 rfl slices_S2x600000_S1x600000_1_0 e 0]
  rfl

end Cert.KernelIdeal.Host

end
-- ==== Proof.KernelVal.lean ====
/-
  The kernel program's result as a function of its arguments: the first region's messages, read at the contents the
  host lines before it leave, are the messages of the edges with rows fetched at the clamped raw numbers; the host lines
  between the regions sum them at the raw destination numbers; the second region, entered at those sums and the node
  features, leaves the gated update of every node. The transposed weights the regions see are the stored weights
  read across.
-/
import proofs.«414448_j16415365005578_2_alg».proof.Proof.Reg0Val
import proofs.«414448_j16415365005578_2_alg».proof.Proof.Reg1Val
import proofs.«414448_j16415365005578_2_alg».proof.Proof.HostVal
import proofs.«414448_j16415365005578_2_alg».proof.Proof.FrameVal

set_option maxRecDepth 16384

noncomputable section

open Idealize.ShloMosaic Idealize.ShloMosaic.TcCoe Idealize.SL.Sem
open Idealize.ShloMosaic.ValueIdx

namespace Cert.KernelIdeal.Result

open Cert.KernelIdeal Cert.KernelIdeal.Gen Cert.KernelIdeal.Host Cert.KernelIdeal.Regions Cert.Spec

variable (m : (ℓ : Loc nD τ sig) → Buf (Elt Ideal) ℓ) (ρ : Dev nD → PrngReg)

/-- The first region's output array: the message of every edge, rows fetched at the clamped raw numbers. -/
theorem messages_entry (c : Dev nD) :
    (dat0 (F := Ideal) (V4 m ρ) c).arrAt 9 cfg0.N
      = fun i => edgeMessage (nodes m c) (edges m c) (edgeFeat m c) (w1 m c) (b1 m c) (w2 m c) (b2 m c) id (i 0) (i 1) := by
  rw [messages]
  funext i
  have hA : ∀ q k, (V4 m ρ c main_v8 : Mat 128 128) (ix2 q k) = w1 m c (ix2 k (col0 q)) := fun q k => by
    rw [entry0_w1a]; exact block_apply (w1 m c) 0 _ q k (col0 q) (by show q.val = 0 + q.val; omega)
  have hB : ∀ q k, (V4 m ρ c main_v10 : Mat 128 128) (ix2 q k) = w1 m c (ix2 k (col1 q)) := fun q k => by
    rw [entry0_w1b]; exact block_apply (w1 m c) 128 _ q k (col1 q) rfl
  have hC : ∀ q k, (V4 m ρ c main_v12 : Mat 128 128) (ix2 q k) = w1 m c (ix2 k (col2 q)) := fun q k => by
    rw [entry0_w1c]; exact block_apply (w1 m c) 256 _ q k (col2 q) rfl
  have hD : ∀ k j, (V4 m ρ c main_v13 : Mat 128 128) (ix2 k j) = w2 m c (ix2 j k) := fun k j => by
    rw [entry0_w2]; exact transpose_ix2_apply _ _ k j
  rw [messageT_eq hA hB hC (entry0_b1_apply m ρ c) hD (entry0_b2_apply m ρ c)]
  unfold edgeMessage
  rw [show row (V4 m ρ c main_v5) (i 0) = row (nodes m c) (clampRow (id (src (edges m c) (i 0)))) from
      funext fun k => entry0_src_apply m ρ c (i 0) k,
    show row (V4 m ρ c main_v6) (i 0) = row (nodes m c) (clampRow (id (dst (edges m c) (i 0)))) from
      funext fun k => entry0_dst_apply m ρ c (i 0) k,
    entry0_edgeFeat]

/-- The sums the second region is entered at. -/
theorem received_entry (c : Dev nD) (n : Fin 100000) :
    row (V6 m ρ c main_v21) n
      = received (edges m c) (edgeMessage (nodes m c) (edges m c) (edgeFeat m c) (w1 m c) (b1 m c) (w2 m c) (b2 m c) id) n := by
  funext k
  unfold row
  rw [entry1_received, received_apply, messages_entry]
  rfl

/-- The second region's output array: the whole computation, rows fetched at the clamped raw numbers. -/
theorem updated_entry (c : Dev nD) :
    (dat1 (F := Ideal) (V6 m ρ) c).arrAt 6 cfg1.N
      = result id (nodes m c) (edges m c) (edgeFeat m c) (w1 m c) (b1 m c) (w2 m c) (b2 m c) (wi m c) (bi m c) (wh m c) (bh m c) := by
  rw [updated]
  funext i
  unfold result
  have hWi : ∀ k g, (V6 m ρ c main_v14 : Mat 128 384) (ix2 k g) = wi m c (ix2 g k) := fun k g => by
    rw [entry1_wi]; exact transpose_ix2_apply _ _ k g
  have hWh : ∀ k g, (V6 m ρ c main_v15 : Mat 128 384) (ix2 k g) = wh m c (ix2 g k) := fun k g => by
    rw [entry1_wh]; exact transpose_ix2_apply _ _ k g
  have hbi : ∀ g, (V6 m ρ c main_v22 : Mat 1 384) (ix2 0 g) = bi m c (ix1 g) := fun g => by
    rw [entry1_bi]; exact shapeCast_a_1a_apply _ _ 0 g
  have hbh : ∀ g, (V6 m ρ c main_v23 : Mat 1 384) (ix2 0 g) = bh m c (ix1 g) := fun g => by
    rw [entry1_bh]; exact shapeCast_a_1a_apply _ _ 0 g
  rw [updateT_eq hWi hbi hWh hbh]
  exact congrArg₂ (fun g x => update (wi m c) (bi m c) (wh m c) (bh m c) g x (i 1)) (received_entry m ρ c (i 0))
    (congrArg (fun A : Mat 100000 128 => row A (i 0)) (entry1_nodes m ρ c))

/-- The result buffer after the run. -/
theorem final (c : Dev nD) : W7 m ρ c (Proc.devRef .tc main_v24)
    = result id (nodes m c) (edges m c) (edgeFeat m c) (w1 m c) (b1 m c) (w2 m c) (b2 m c) (wi m c) (bi m c) (wh m c) (bh m c) :=
  (W7_arr m ρ c 6).trans (updated_entry m ρ c)

/-- The run with the result named as a function of the arguments. -/
theorem run : θ_run defs (onTc (τ := τ) (main (F := Ideal))) ⟨m, fun _ => 0, ρ⟩ (fun r => ∀ c : Dev nD,
      r.2.mem ((c.tc : Thread nD τ).loc main_v24)
        = result id (nodes m c) (edges m c) (edgeFeat m c) (w1 m c) (b1 m c) (w2 m c) (b2 m c) (wi m c) (bi m c) (wh m c) (bh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (final m ρ c), (h c).2⟩) (run_result (F := Ideal) m ρ)

end Cert.KernelIdeal.Result

end
-- ==== Proof.RefVal.lean ====
/-
  The reference program's result as a function of its eleven arguments.

  The program is read one stage at a time, each stage at an index over explicit coordinates
  (edge e, node n, feature k, gate column g):

  * the two columns of row numbers: a negative number has the table's height added;
  * the gathered rows: row e of a gathered array is the table's row at the clamped row number;
  * the joined features: columns 0…127 the source row, 128…255 the destination row, 256…383 the edge's own;
  * the first affine layer: a sum over 384 columns, split into its three blocks of 128;
  * the message, the sums received by each node, the two families of gate inputs, and the gated update.
-/
import proofs.«414448_j16415365005578_2_alg».proof.Proof.Gen.ReferenceIdeal.Read
import proofs.«414448_j16415365005578_2_alg».proof.Proof.Spec
import proofs.«414448_j16415365005578_2_alg».proof.Proof.LibGather
import proofs.«414448_j16415365005578_2_alg».proof.Proof.LibSegmentSum
import Idealize.ShloMosaic.Lib.Affine
import Idealize.ShloMosaic.Lib.Pipeline.Value
import Idealize.ShloMosaic.Lib.ValueIdx
import Idealize.ShloMosaic.PureOps.Ideal
noncomputable section
open Idealize.ShloMosaic Idealize.ShloMosaic.TcCoe Idealize.SL.Sem
namespace Cert.ReferenceIdeal.RefValue
open Cert.ReferenceIdeal Cert.ReferenceIdeal.Gen Cert.ReferenceIdeal.Read Cert.Spec
open Idealize.ShloMosaic.ValueIdx

/-! ## Words: counting a negative row number from the end -/

/-- The compare-add-select spelling of "a negative number has 100000 added". -/
theorem select_wrap (v : BitVec 32) :
    Scalar.select (IntOp.cmpi .slt v 0#32) (IntOp.addi v 100000#32) v = wrap v := by
  unfold wrap
  by_cases h : v.toInt < 0
  · have hc : IntOp.cmpi .slt v 0#32 = 1#1 := IntOp.cmpi_slt.2 (by rw [BitVec.toInt_zero]; exact h)
    rw [if_pos h, hc, select_one]; rfl
  · have hc : IntOp.cmpi .slt v 0#32 = 0#1 :=
      eq_zero_of_ne_one fun hc => h (by have := IntOp.cmpi_slt.1 hc; rwa [BitVec.toInt_zero] at this)
    rw [if_neg h, hc, select_zero]

/-! ## The two index columns -/

section Columns
variable (x1 : (⟨S2x600000, .i32⟩ : BufTy).Contents (Elt Ideal)) (e : Fin 600000)

/-- The first row of the edge list, flattened: the source word of edge e. -/
theorem srcRow_at : val_main_v1 (F := Ideal) x1 (ix1 e) = src x1 e := by
  rw [val_main_v1_apply, val_main_v0_apply]
  unfold src
  refine congrArg x1 (funext fun a => Fin.ext ?_)
  match a with
  | ⟨0, _⟩ => rfl
  | ⟨1, _⟩ => exact Nat.mod_eq_of_lt e.isLt

/-- The second row of the edge list, flattened: the destination word of edge e. -/
theorem dstRow_at : val_main_v3 (F := Ideal) x1 (ix1 e) = dst x1 e := by
  rw [val_main_v3_apply, val_main_v2_apply]
  unfold dst
  refine congrArg x1 (funext fun a => Fin.ext ?_)
  match a with
  | ⟨0, _⟩ => rfl
  | ⟨1, _⟩ => exact Nat.mod_eq_of_lt e.isLt

/-- The column of source row numbers the first gather reads. -/
theorem srcCol_at : val_main_v9 (F := Ideal) x1 (ix2 e (0 : Fin 1)) = wrap (src x1 e) := by
  rw [val_main_v9_apply, show idx_main_v9 (ix2 e (0 : Fin 1)) = ix1 e from funext fun a => by match a with | ⟨0, _⟩ => rfl,
    val_main_v8_apply, val_main_v5_apply, val_main_v7_apply, val_main_v4_apply, val_main_v6_apply, val_main_c_apply,
    val_main_c_0_apply, srcRow_at]
  exact select_wrap _

/-- The column of destination row numbers the second gather reads. -/
theorem dstCol_at : val_main_v16 (F := Ideal) x1 (ix2 e (0 : Fin 1)) = wrap (dst x1 e) := by
  rw [val_main_v16_apply, show idx_main_v16 (ix2 e (0 : Fin 1)) = ix1 e from funext fun a => by match a with | ⟨0, _⟩ => rfl,
    val_main_v15_apply, val_main_v12_apply, val_main_v14_apply, val_main_v11_apply, val_main_v13_apply, val_main_c_1_apply,
    val_main_c_2_apply, dstRow_at]
  exact select_wrap _

/-- The column of destination numbers the scatter-add reads: the raw words. -/
theorem rawDstCol_at : val_main_v31 (F := Ideal) x1 (ix2 e (0 : Fin 1)) = dst x1 e := by
  rw [val_main_v31_apply, show idx_main_v31 (ix2 e (0 : Fin 1)) = ix1 e from funext fun a => by match a with | ⟨0, _⟩ => rfl,
    dstRow_at]

end Columns

/-! ## The gathered rows -/

section Gathered
variable (x0 : (⟨S100000x128, .f32⟩ : BufTy).Contents (Elt Ideal)) (x1 : (⟨S2x600000, .i32⟩ : BufTy).Contents (Elt Ideal))
  (e : Fin 600000) (k : Fin 128)

/-- Row e of the first gathered array is the table's row at the source number, counted from the end when negative. -/
theorem srcRows_at : val_main_v10 (F := Ideal) x0 x1 (ix2 e k) = x0 (ix2 (clampRow (wrap (src x1 e))) k) := by
  unfold val_main_v10
  rw [RowGather.gather_rows gather_S100000x128_S600000x1_S600000x128_1_0_n_n_0_1_1128 rfl rfl rfl rfl rfl
    (val_main_v9 (F := Ideal) x1) e k x0 (by decide)]
  refine congrArg x0 (congrArg (fun r => ix2 r k) (Fin.ext ?_))
  show min (val_main_v9 (F := Ideal) x1 (ix2 e (0 : Fin 1))).toInt.toNat (100000 - 1) = min (wrap (src x1 e)).toInt.toNat 99999
  rw [srcCol_at]

/-- Row e of the second gathered array is the table's row at the destination number, counted likewise. -/
theorem dstRows_at : val_main_v17 (F := Ideal) x0 x1 (ix2 e k) = x0 (ix2 (clampRow (wrap (dst x1 e))) k) := by
  unfold val_main_v17
  rw [RowGather.gather_rows gather_S100000x128_S600000x1_S600000x128_1_0_n_n_0_1_1128 rfl rfl rfl rfl rfl
    (val_main_v16 (F := Ideal) x1) e k x0 (by decide)]
  refine congrArg x0 (congrArg (fun r => ix2 r k) (Fin.ext ?_))
  show min (val_main_v16 (F := Ideal) x1 (ix2 e (0 : Fin 1))).toInt.toNat (100000 - 1) = min (wrap (dst x1 e)).toInt.toNat 99999
  rw [dstCol_at]

end Gathered

/-! ## The joined features -/

section Joined
variable (x0 : (⟨S100000x128, .f32⟩ : BufTy).Contents (Elt Ideal)) (x1 : (⟨S2x600000, .i32⟩ : BufTy).Contents (Elt Ideal))
  (x2 : (⟨S600000x128, .f32⟩ : BufTy).Contents (Elt Ideal)) (e : Fin 600000) (q : Fin 128)

/-- Columns 0…127 of the joined array are the gathered source row. -/
theorem joined_col0 : val_main_v18 (F := Ideal) x0 x1 x2 (ix2 e (col0 q)) = val_main_v10 (F := Ideal) x0 x1 (ix2 e q) := by
  unfold val_main_v18
  refine concatenate_apply_piece 1 _ _ (ix2 e (col0 q)) 0 (by show 0 < 3; omega) S600000x128 _ rfl rfl 0 rfl (ix2 e q) (fun b hb => ?_) ?_
  · match b with
    | ⟨0, _⟩ => rfl
    | ⟨1, _⟩ => exact absurd rfl hb
  · show 0 + q.val = q.val
    omega

/-- Columns 128…255 are the gathered destination row. -/
theorem joined_col1 : val_main_v18 (F := Ideal) x0 x1 x2 (ix2 e (col1 q)) = val_main_v17 (F := Ideal) x0 x1 (ix2 e q) := by
  unfold val_main_v18
  refine concatenate_apply_piece 1 _ _ (ix2 e (col1 q)) 1 (by show 1 < 3; omega) S600000x128 _ rfl rfl 128 rfl (ix2 e q) (fun b hb => ?_) ?_
  · match b with
    | ⟨0, _⟩ => rfl
    | ⟨1, _⟩ => exact absurd rfl hb
  · rfl

/-- Columns 256…383 are the edge's own features. -/
theorem joined_col2 : val_main_v18 (F := Ideal) x0 x1 x2 (ix2 e (col2 q)) = x2 (ix2 e q) := by
  unfold val_main_v18
  refine concatenate_apply_piece 1 _ _ (ix2 e (col2 q)) 2 (by show 2 < 3; omega) S600000x128 _ rfl rfl 256 rfl (ix2 e q) (fun b hb => ?_) ?_
  · match b with
    | ⟨0, _⟩ => rfl
    | ⟨1, _⟩ => exact absurd rfl hb
  · rfl

end Joined

/-- A sum over 384 columns is the sum over its three blocks of 128. -/
theorem sum_three_blocks (f : Fin 384 → EReal) :
    ∑ c : Fin 384, f c = ((∑ q : Fin 128, f (col0 q)) + ∑ q : Fin 128, f (col1 q)) + ∑ q : Fin 128, f (col2 q) := by
  have h1 := Fin.sum_univ_add (a := 256) (b := 128) (f : Fin (256 + 128) → EReal)
  have h2 := Fin.sum_univ_add (a := 128) (b := 128) (fun i : Fin (128 + 128) => f (Fin.castAdd 128 i))
  exact h1.trans (congrArg (· + ∑ q : Fin 128, f (col2 q)) h2)

/-! ## The edge network -/

section EdgeNetwork
variable (x0 : (⟨S100000x128, .f32⟩ : BufTy).Contents (Elt Ideal)) (x1 : (⟨S2x600000, .i32⟩ : BufTy).Contents (Elt Ideal))
  (x2 : (⟨S600000x128, .f32⟩ : BufTy).Contents (Elt Ideal)) (x3 : (⟨S128x384, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (e : Fin 600000)

/-- The first product at (e, k): the joined row e against row k of the stored first weight matrix. -/
theorem firstProduct_sum (k : Fin 128) :
    val_main_v20 (F := Ideal) x0 x1 x2 x3 (ix2 e k)
      = ∑ c : Fin 384, val_main_v18 (F := Ideal) x0 x1 x2 (ix2 e c) * x3 (ix2 k c) := by
  rw [val_main_v20_apply]
  refine Finset.sum_congr rfl fun c _ => ?_
  rw [val_main_v19_apply]
  refine congrArg₂ (· * ·) (congrArg _ (funext fun a => ?_)) (congrArg x3 (funext fun a => ?_))
  · match a with
    | ⟨0, _⟩ => rfl
    | ⟨1, _⟩ => rfl
  · match a with
    | ⟨0, _⟩ => rfl
    | ⟨1, _⟩ => rfl

/-- The same product, split into the source block, the destination block and the edge-feature block. -/
theorem firstProduct_at (k : Fin 128) :
    val_main_v20 (F := Ideal) x0 x1 x2 x3 (ix2 e k)
      = ((∑ q : Fin 128, x0 (ix2 (clampRow (wrap (src x1 e))) q) * x3 (ix2 k (col0 q)))
          + ∑ q : Fin 128, x0 (ix2 (clampRow (wrap (dst x1 e))) q) * x3 (ix2 k (col1 q)))
        + ∑ q : Fin 128, x2 (ix2 e q) * x3 (ix2 k (col2 q)) := by
  rw [firstProduct_sum, sum_three_blocks]
  refine congrArg₂ (· + ·) (congrArg₂ (· + ·) (Finset.sum_congr rfl fun q _ => ?_) (Finset.sum_congr rfl fun q _ => ?_))
    (Finset.sum_congr rfl fun q _ => ?_)
  · show val_main_v18 (F := Ideal) x0 x1 x2 (ix2 e (col0 q)) * x3 (ix2 k (col0 q)) = _
    rw [joined_col0, srcRows_at]
  · show val_main_v18 (F := Ideal) x0 x1 x2 (ix2 e (col1 q)) * x3 (ix2 k (col1 q)) = _
    rw [joined_col1, dstRows_at]
  · show val_main_v18 (F := Ideal) x0 x1 x2 (ix2 e (col2 q)) * x3 (ix2 k (col2 q)) = _
    rw [joined_col2]

/-- The first bias laid along every edge. -/
theorem firstBias_at (k : Fin 128) : val_main_v22 (F := Ideal) x4 (ix2 e k) = x4 (ix1 k) := by
  rw [val_main_v22_apply, val_main_v21_apply]
  exact congrArg x4 (funext fun a => by match a with | ⟨0, _⟩ => rfl)

/-- The hidden layer of edge e. -/
theorem hidden_at (k : Fin 128) :
    val_main_v24 (F := Ideal) x0 x1 x2 x3 x4 (ix2 e k)
      = hidden x3 x4 (row x0 (clampRow (wrap (src x1 e)))) (row x0 (clampRow (wrap (dst x1 e)))) (row x2 e) k := by
  rw [val_main_v24_apply, val_main_v23_apply, val_main_call0_v0_apply, val_main_call0_cst_apply, firstProduct_at, firstBias_at]
  rfl

/-- The second bias laid along every edge. -/
theorem secondBias_at (j : Fin 128) : val_main_v28 (F := Ideal) x6 (ix2 e j) = x6 (ix1 j) := by
  rw [val_main_v28_apply, val_main_v27_apply]
  exact congrArg x6 (funext fun a => by match a with | ⟨0, _⟩ => rfl)

/-- The message of edge e. -/
theorem message_at (j : Fin 128) :
    val_main_v29 (F := Ideal) x0 x1 x2 x3 x4 x5 x6 (ix2 e j) = edgeMessage x0 x1 x2 x3 x4 x5 x6 wrap e j := by
  rw [val_main_v29_apply, val_main_v26_apply, secondBias_at]
  unfold edgeMessage message
  refine congrArg (· + x6 (ix1 j)) (Finset.sum_congr rfl fun k _ => ?_)
  rw [val_main_v25_apply, show lidx_main_v26 (ix2 e j) k = ix2 e k from funext fun a => by
    match a with
    | ⟨0, _⟩ => rfl
    | ⟨1, _⟩ => rfl, hidden_at]
  refine congrArg (_ * ·) (congrArg x5 (funext fun a => ?_))
  match a with
  | ⟨0, _⟩ => rfl
  | ⟨1, _⟩ => rfl

end EdgeNetwork

/-! ## The sums received by the nodes, and the gate inputs -/

section Nodes
variable (x0 : (⟨S100000x128, .f32⟩ : BufTy).Contents (Elt Ideal)) (x1 : (⟨S2x600000, .i32⟩ : BufTy).Contents (Elt Ideal))
  (x2 : (⟨S600000x128, .f32⟩ : BufTy).Contents (Elt Ideal)) (x3 : (⟨S128x384, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S384x128, .f32⟩ : BufTy).Contents (Elt Ideal))
  (x8 : (⟨S384, .f32⟩ : BufTy).Contents (Elt Ideal)) (x9 : (⟨S384x128, .f32⟩ : BufTy).Contents (Elt Ideal))
  (x10 : (⟨S384, .f32⟩ : BufTy).Contents (Elt Ideal)) (n : Fin 100000)

/-- Node n receives, from zero, the messages of the edges whose raw destination word, read signed, is n. -/
theorem received_at (k : Fin 128) :
    val_main_v32 (F := Ideal) x0 x1 x2 x3 x4 x5 x6 (ix2 n k)
      = received x1 (edgeMessage x0 x1 x2 x3 x4 x5 x6 wrap) n k := by
  unfold val_main_v32
  rw [SegmentSum.scatterAdd_rows scatter_S100000x128_S600000x1_S600000x128_1_0_0_1 rfl rfl rfl rfl
    (val_main_v31 (F := Ideal) x1) (φ := .f32) (val_main_v30 (F := Ideal)) (val_main_v29 (F := Ideal) x0 x1 x2 x3 x4 x5 x6) n k,
    val_main_v30_apply, val_main_cst_apply]
  unfold received
  refine congrArg (zero + ·) (Finset.sum_congr rfl fun e _ => ?_)
  rw [rawDstCol_at, message_at]

/-- The gate inputs from the received sums. -/
theorem gateIn_at (g : Fin 384) :
    val_main_v37 (F := Ideal) x0 x1 x2 x3 x4 x5 x6 x7 x8 (ix2 n g)
      = aff x7 x8 (received x1 (edgeMessage x0 x1 x2 x3 x4 x5 x6 wrap) n) g := by
  rw [val_main_v37_apply, val_main_v34_apply, val_main_v36_apply, val_main_v35_apply]
  unfold aff
  refine congrArg₂ (· + ·) (Finset.sum_congr rfl fun k _ => ?_) (congrArg x8 (funext fun a => by match a with | ⟨0, _⟩ => rfl))
  have hl : lidx_main_v34 (ix2 n g) k = ix2 n k := funext fun a => by
    match a with
    | ⟨0, _⟩ => rfl
    | ⟨1, _⟩ => rfl
  have hr : idx_main_v33 (ridx_main_v34 (ix2 n g) k) = ix2 g k := funext fun a => by
    match a with
    | ⟨0, _⟩ => rfl
    | ⟨1, _⟩ => rfl
  rw [val_main_v33_apply, hl, hr, received_at]

/-- The gate inputs from the node's own features. -/
theorem gateOwn_at (g : Fin 384) :
    val_main_v42 (F := Ideal) x0 x9 x10 (ix2 n g) = aff x9 x10 (row x0 n) g := by
  rw [val_main_v42_apply, val_main_v39_apply, val_main_v41_apply, val_main_v40_apply]
  unfold aff row
  refine congrArg₂ (· + ·) (Finset.sum_congr rfl fun k _ => ?_) (congrArg x10 (funext fun a => by match a with | ⟨0, _⟩ => rfl))
  rw [val_main_v38_apply]
  refine congrArg₂ (· * ·) (congrArg x0 (funext fun a => ?_)) (congrArg x9 (funext fun a => ?_))
  · match a with
    | ⟨0, _⟩ => rfl
    | ⟨1, _⟩ => rfl
  · match a with
    | ⟨0, _⟩ => rfl
    | ⟨1, _⟩ => rfl

end Nodes

/-! ## The gated update -/

/-- The reference's result, as a function of its eleven arguments, is the message-passing round and gated update with
    negative row numbers counted from the end. -/
theorem result_eq (x0 : (⟨S100000x128, .f32⟩ : BufTy).Contents (Elt Ideal)) (x1 : (⟨S2x600000, .i32⟩ : BufTy).Contents (Elt Ideal))
    (x2 : (⟨S600000x128, .f32⟩ : BufTy).Contents (Elt Ideal)) (x3 : (⟨S128x384, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S384x128, .f32⟩ : BufTy).Contents (Elt Ideal))
    (x8 : (⟨S384, .f32⟩ : BufTy).Contents (Elt Ideal)) (x9 : (⟨S384x128, .f32⟩ : BufTy).Contents (Elt Ideal))
    (x10 : (⟨S384, .f32⟩ : BufTy).Contents (Elt Ideal)) :
    val_main_v70 (F := Ideal) x0 x1 x2 x3 x4 x5 x6 x7 x8 x9 x10 = result wrap x0 x1 x2 x3 x4 x5 x6 x7 x8 x9 x10 := by
  funext i
  obtain ⟨n, j, rfl⟩ : ∃ (n : Fin 100000) (j : Fin 128), i = ix2 n j := ⟨i 0, i 1, eq_ix2 i⟩
  -- the three column slices of each family of gate inputs read the reset, update and candidate columns
  have s0 : idx_main_v43 (ix2 n j) = ix2 n (gate0 j) := funext fun a => by
    match a with
    | ⟨0, _⟩ => rfl
    | ⟨1, _⟩ => rfl
  have s1 : idx_main_v44 (ix2 n j) = ix2 n (gate1 j) := funext fun a => by
    match a with
    | ⟨0, _⟩ => rfl
    | ⟨1, _⟩ => rfl
  have s2 : idx_main_v45 (ix2 n j) = ix2 n (gate2 j) := funext fun a => by
    match a with
    | ⟨0, _⟩ => rfl
    | ⟨1, _⟩ => rfl
  have t0 : idx_main_v46 (ix2 n j) = ix2 n (gate0 j) := funext fun a => by
    match a with
    | ⟨0, _⟩ => rfl
    | ⟨1, _⟩ => rfl
  have t1 : idx_main_v47 (ix2 n j) = ix2 n (gate1 j) := funext fun a => by
    match a with
    | ⟨0, _⟩ => rfl
    | ⟨1, _⟩ => rfl
  have t2 : idx_main_v48 (ix2 n j) = ix2 n (gate2 j) := funext fun a => by
    match a with
    | ⟨0, _⟩ => rfl
    | ⟨1, _⟩ => rfl
  rw [val_main_v70_apply, val_main_v68_apply, val_main_v69_apply, val_main_v67_apply, val_main_v66_apply, val_main_cst_7_apply,
    val_main_v65_apply, val_main_v64_apply, val_main_v63_apply, val_main_v62_apply, val_main_v61_apply, val_main_cst_6_apply,
    val_main_v60_apply, val_main_v59_apply, val_main_cst_5_apply, val_main_v58_apply, val_main_v57_apply, val_main_v56_apply,
    val_main_v55_apply, val_main_v54_apply, val_main_cst_4_apply, val_main_v53_apply, val_main_v52_apply, val_main_cst_3_apply,
    val_main_v51_apply, val_main_v50_apply, val_main_v49_apply, val_main_v43_apply, val_main_v44_apply, val_main_v45_apply,
    val_main_v46_apply, val_main_v47_apply, val_main_v48_apply, s0, s1, s2, t0, t1, t2,
    gateIn_at x0 x1 x2 x3 x4 x5 x6 x7 x8 n (gate0 j), gateIn_at x0 x1 x2 x3 x4 x5 x6 x7 x8 n (gate1 j),
    gateIn_at x0 x1 x2 x3 x4 x5 x6 x7 x8 n (gate2 j), gateOwn_at x0 x9 x10 n (gate0 j), gateOwn_at x0 x9 x10 n (gate1 j),
    gateOwn_at x0 x9 x10 n (gate2 j)]
  simp only [Ideal.addf_def, Ideal.subf_def, Ideal.mulf_def, Ideal.hostDivf_def, Ideal.hostNegf_def, Ideal.negf_def,
    Ideal.hostUnary_exp_def, Ideal.hostUnary_tanh_def, Ideal.ofBits_def]
  rw [logistic_spelled, logistic_spelled]
  rfl

end Cert.ReferenceIdeal.RefValue
end
-- ==== Proof.SrcNonneg.lean ====
/-
  What the precondition says of the edge list: every source number, read as a signed integer, is non-negative.
  The precondition is a conjunction of "all" tests, the last of them the comparison of the edge list's first row with
  zero; a conjunction that holds gives its last conjunct, and an "all" that holds gives the test at every element.
-/
import proofs.«414448_j16415365005578_2_alg».proof.Pre_finite_inputs
import proofs.«414448_j16415365005578_2_alg».proof.Proof.Gen.Pre_finite_inputs
import proofs.«414448_j16415365005578_2_alg».proof.Proof.Spec
import Idealize.ShloMosaic.Lib.ReduceAll
import Idealize.ShloMosaic.Lib.Pipeline.Value
import Idealize.ShloMosaic.Lib.IdealHost
import Idealize.ShloMosaic.Lib.ValueIdx

noncomputable section

open Idealize.ShloMosaic Idealize.ShloMosaic.ValueIdx

namespace Cert.Pre_finite_inputs.Decode

open Cert.Pre_finite_inputs Cert.Pre_finite_inputs.Facts Cert.Spec

variable [Cert.Pre_finite_inputs.Facts]

/-- An array with no axes has one index. -/
instance : Subsingleton S_.Idx := ⟨fun a b => funext fun d => d.elim0⟩

theorem src_nonneg (x0 : FVec Ideal S100000x128 .f32) (x1 : IVec S2x600000 32) (x2 : FVec Ideal S600000x128 .f32)
    (x3 : FVec Ideal S128x384 .f32) (x4 : FVec Ideal S128 .f32) (x5 : FVec Ideal S128x128 .f32) (x6 : FVec Ideal S128 .f32)
    (x7 : FVec Ideal S384x128 .f32) (x8 : FVec Ideal S384 .f32) (x9 : FVec Ideal S384x128 .f32) (x10 : FVec Ideal S384 .f32)
    (h : fn (F := Ideal) x0 x1 x2 x3 x4 x5 x6 x7 x8 x9 x10 = fun _ => 1#1) (e : Fin 600000) :
    0 ≤ (src x1 e).toInt := by
  have h0 := congrFun h ix0
  dsimp only [fn, fn_part1, fn_part2, fn_part3] at h0
  have h1 := (IntOp.andi_eq_one.1 h0).2
  have h2 := Host.reduce_andi_all _ _ _ _ _ h1 (ix1 e)
  have h3 := IntOp.cmpi_sge.1 h2
  rw [broadcastInDim_scalar_apply,
    shapeCast_apply _ shapeCasts_S1x600000_S600000 (ix1 e) (ix2 (0 : Fin 1) e) (by
      rw [Shape.rowMajor_val_two, Shape.rowMajor_val_one]; show 0 * 600000 + e.val = e.val; omega),
    extractStridedSlice_apply _ x1 slices_S2x600000_S1x600000_0_0 (ix2 (0 : Fin 1) e) (ix2 (0 : Fin 2) e) (fun b => by
      match b with
      | ⟨0, _⟩ => rfl
      | ⟨1, _⟩ => show e.val = 0 + e.val; omega)] at h3
  exact h3

end Cert.Pre_finite_inputs.Decode

end
-- ==== Proof.lean ====
/-
  One round of message passing over a graph followed by a gated recurrent update of every node: the kernel program (two
  tiled kernels around host gathers and a host scatter-add) against the plain reference, over the extended reals.

  Both programs compute, for node n and feature j, the gated update (1 − z)·tanh(i_n + r·h_n) + z·x(n, j) of the node's
  features x(n, ·) and of the sum of the messages of the edges whose destination number is n, a message being a two-layer
  network of the source node's, the destination node's and the edge's features (Proof/Spec.lean). At the extended reals the
  kernel's narrowing of its matrix operands is the identity, its three products with blocks of the first weight matrix
  are the reference's one product with the joined features split over its three column blocks, and its logistic is the
  reference's "one over one plus the exponential of the negative". The one difference is in how a row number is turned
  into a row: the reference counts a negative number from the end before the fetch, the kernel program clamps the raw
  number. With every SOURCE number non-negative (the precondition's last conjunct) the two agree: a source row is
  fetched at the same place, and an edge whose DESTINATION number is negative has its message dropped by the sum on both
  sides, so its differing destination row is never used (Spec.result_wrap_eq).

  The parts: the kernel program's run with its result named as that function of the arguments
  (Proof/KernelVal.lean, over Proof/Reg0Val.lean, Proof/Reg1Val.lean, Proof/HostVal.lean and the run of Proof/FrameVal.lean),
  the reference's result as the same function with negative numbers counted from the end (Proof/RefVal.lean, over the
  generated run), what the precondition says of the source numbers (Proof/SrcNonneg.lean), and the claims below.
-/
import proofs.«414448_j16415365005578_2_alg».proof.Defs
import proofs.«414448_j16415365005578_2_alg».proof.Proof.Gen.Kernel
import proofs.«414448_j16415365005578_2_alg».proof.Proof.Gen.Kernel.Skeleton
import proofs.«414448_j16415365005578_2_alg».proof.Proof.Gen.Kernel.Launch
import proofs.«414448_j16415365005578_2_alg».proof.Proof.Gen.Kernel.Points
import proofs.«414448_j16415365005578_2_alg».proof.Proof.Gen.Kernel.Frame
import proofs.«414448_j16415365005578_2_alg».proof.Proof.Gen.KernelIdeal
import proofs.«414448_j16415365005578_2_alg».proof.Proof.Gen.KernelIdeal.Skeleton
import proofs.«414448_j16415365005578_2_alg».proof.Proof.Gen.KernelIdeal.Launch
import proofs.«414448_j16415365005578_2_alg».proof.Proof.Gen.KernelIdeal.Points
import proofs.«414448_j16415365005578_2_alg».proof.Proof.Gen.KernelIdeal.Frame
import proofs.«414448_j16415365005578_2_alg».proof.Proof.Gen.ReferenceIdeal
import proofs.«414448_j16415365005578_2_alg».proof.Proof.Gen.ReferenceIdeal.Run
import proofs.«414448_j16415365005578_2_alg».proof.Proof.Gen.ReferenceIdeal.Read
import proofs.«414448_j16415365005578_2_alg».proof.Proof.Gen.Pre_finite_inputs
import proofs.«414448_j16415365005578_2_alg».proof.Proof.KernelVal
import proofs.«414448_j16415365005578_2_alg».proof.Proof.RefVal
import proofs.«414448_j16415365005578_2_alg».proof.Proof.SrcNonneg
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both results are the message-passing round and gated update of the arguments; the reference's counting of negative
    row numbers from the end changes nothing when every source number is non-negative. -/
theorem algebraic :
    @Cert.algebraic_KernelIdeal_ReferenceIdeal Cert.KernelIdeal.Gen.facts Cert.ReferenceIdeal.Gen.facts Cert.Pre_finite_inputs.Gen.facts := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v70_eq, e0, e1, e2, e3, e4, e5, e6, e7, e8, e9, e10,
    Cert.ReferenceIdeal.RefValue.result_eq]
  exact Cert.Spec.result_wrap_eq _ _ _ _ _ _ _ _ _ _ _
    (Cert.Pre_finite_inputs.Decode.src_nonneg _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
